-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x1600000 : S_.BroadcastsInDim S2x1600000 (![] : Fin 0 → Fin S2x1600000.rank)
  reducesTo_S2x1600000_S_d0_1 : S2x1600000.ReducesTo [0, 1] S_

variable [Facts]

def fn_part1 {F : FTy → Type} [FloatOps F] (main_arg3 : IVec S2x1600000 32) (main_v13 : IVec S_ 1) (main_v15 : IVec S2x1600000 1) (main_c_5 : IVec S_ 1) : IVec S_ 1 :=
  let main_v16 : IVec S_ 1 := (fun x v => Host.reduce IntOp.andi x v reducesTo_S2x1600000_S_d0_1 h_S_) main_v15 main_c_5
  let main_v17 : IVec S_ 1 := andi main_v13 main_v16
  let main_c_6 : IVec S_ 32 := constantI S_ 32 100000#32
  let main_v18 : IVec S2x1600000 32 := broadcastInDim S2x1600000 ![] bcast_S_S2x1600000 main_c_6
  let main_v19 : IVec S2x1600000 1 := cmpi .slt main_arg3 main_v18
  let main_c_7 : IVec S_ 1 := constantI S_ 1 1#1
  let main_v20 : IVec S_ 1 := (fun x v => Host.reduce IntOp.andi x v reducesTo_S2x1600000_S_d0_1 h_S_) main_v19 main_c_7
  let main_v21 : IVec S_ 1 := andi main_v17 main_v20
  main_v21

def fn {F : FTy → Type} [FloatOps F] (main_arg0 : FVec F S100000x128 .f32) (main_arg1 : FVec F S128x128 .f32) (main_arg2 : FVec F S128 .f32) (main_arg3 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_c_4 : IVec S_ 32 := constantI S_ 32 0#32
  let main_v14 : IVec S2x1600000 32 := broadcastInDim S2x1600000 ![] bcast_S_S2x1600000 main_c_4
  let main_v15 : IVec S2x1600000 1 := cmpi .sge main_arg3 main_v14
  let main_c_5 : IVec S_ 1 := constantI S_ 1 1#1
  fn_part1 (F := F) main_arg3 main_v13 main_v15 main_c_5
-- ==== Kernel.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S4x1x25000 : Shape := ⟨3, ![4, 1, 25000]⟩
abbrev S2x1x128 : Shape := ⟨3, ![2, 1, 128]⟩
abbrev S1x1x25000 : Shape := ⟨3, ![1, 1, 25000]⟩
abbrev S25000x128 : Shape := ⟨2, ![25000, 128]⟩
abbrev S1x1x128 : Shape := ⟨3, ![1, 1, 128]⟩
abbrev S1x25000 : Shape := ⟨2, ![1, 25000]⟩
abbrev S1x128 : Shape := ⟨2, ![1, 128]⟩
abbrev S2x128 : Shape := ⟨2, ![2, 128]⟩

abbrev nBuf : Space → Nat
  | .hbm => 57
  | .vmem => 6
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S2x1600000, .i32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S_, .i32⟩
  | .hbm, ⟨11, _⟩ => ⟨S100000, .i32⟩
  | .hbm, ⟨12, _⟩ => ⟨S1600000x1, .i32⟩
  | .hbm, ⟨13, _⟩ => ⟨S100000, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000, .f32⟩
  | .hbm, ⟨37, _⟩ => ⟨S_, .f32⟩
  | .hbm, ⟨38, _⟩ => ⟨S100000, .f32⟩
  | .hbm, ⟨39, _⟩ => ⟨S1600000x1, .i32⟩
  | .hbm, ⟨40, _⟩ => ⟨S100000, .f32⟩
  | .hbm, ⟨41, _⟩ => ⟨S100000, .f32⟩
  | .hbm, ⟨42, _⟩ => ⟨S100000, .f32⟩
  | .hbm, ⟨43, _⟩ => ⟨S100000, .f32⟩
  | .hbm, ⟨44, _⟩ => ⟨S4x1x25000, .f32⟩
  | .hbm, ⟨45, _⟩ => ⟨S2x1x128, .f32⟩
  | .hbm, ⟨46, _⟩ => ⟨S2x128, .f32⟩
  | .hbm, ⟨47, _⟩ => ⟨S_, .f32⟩
  | .hbm, ⟨48, _⟩ => ⟨S128, .f32⟩
  | .hbm, ⟨49, _⟩ => ⟨S1x128, .f32⟩
  | .hbm, ⟨50, _⟩ => ⟨S128x128, .f32⟩
  | .hbm, ⟨51, _⟩ => ⟨S1x128, .f32⟩
  | .hbm, ⟨52, _⟩ => ⟨S_, .f32⟩
  | .hbm, ⟨53, _⟩ => ⟨S128, .f32⟩
  | .hbm, ⟨54, _⟩ => ⟨S128, .f32⟩
  | .hbm, ⟨55, _⟩ => ⟨S1x128, .f32⟩
  | .hbm, ⟨56, _⟩ => ⟨S1x128, .f32⟩
  | .local _ .vmem, ⟨0, _⟩ => ⟨S1x1x25000, .f32⟩
  | .local _ .vmem, ⟨1, _⟩ => ⟨S1x1x25000, .f32⟩
  | .local _ .vmem, ⟨2, _⟩ => ⟨S25000x128, .f32⟩
  | .local _ .vmem, ⟨3, _⟩ => ⟨S25000x128, .f32⟩
  | .local _ .vmem, ⟨4, _⟩ => ⟨S1x1x128, .f32⟩
  | .local _ .vmem, ⟨5, _⟩ => ⟨S1x1x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_c_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x25000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S25000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S4x1x25000 : S100000.ShapeCasts S4x1x25000
  inb_S1x1x128_S1x1x128_0_0_0 : ∀ a, (![0, 0, 0] : Fin 3 → Nat) a + S1x1x128.size a ≤ S1x1x128.size a
  h_S1x1x128 : 0 < S1x1x128.numel
  inb_S1x1x25000_S1x1x25000_0_0_0 : ∀ a, (![0, 0, 0] : Fin 3 → Nat) a + S1x1x25000.size a ≤ S1x1x25000.size a
  h_S1x1x25000 : 0 < S1x1x25000.numel
  shapeCasts_S1x1x25000_S1x1x25000 : S1x1x25000.ShapeCasts S1x1x25000
  shapeCasts_S1x1x25000_S1x25000 : S1x1x25000.ShapeCasts S1x25000
  inb_S25000x128_S25000x128_0_0 : ∀ a, (![0, 0] : Fin 2 → Nat) a + S25000x128.size a ≤ S25000x128.size a
  h_S25000x128 : 0 < S25000x128.numel
  shapeCasts_S1x1x128_S1x1x128 : S1x1x128.ShapeCasts S1x1x128
  shapeCasts_S1x128_S1x1x128 : S1x128.ShapeCasts S1x1x128
  shapeCasts_S2x1x128_S2x128 : S2x1x128.ShapeCasts S2x128
  reducesTo_S2x128_S128_d0 : S2x128.ReducesTo [0] S128
  h_S_ : 0 < S_.numel
  bcast_S128_S1x128_1 : S128.BroadcastsInDim S1x128 (![1] : Fin 1 → Fin S1x128.rank)
  transposes_S128x128_S128x128_1_0 : S128x128.Transposes [1, 0] S128x128
  bcast_S_S128 : S_.BroadcastsInDim S128 (![] : Fin 0 → Fin S128.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S1x25000_S25000x128_S1x128_1_0_0_1_n_n_wf : DotDims.WF S1x25000 S25000x128 S1x128 [1] [0] [0] [1] [] []
  dot_S1x128_S128x128_S1x128_1_0_0_1_n_n_wf : DotDims.WF S1x128 S128x128 S1x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x25000.size a ≤ S4x1x25000.size a
  hwx0_0 : ∀ i : grid0.Coords, EltTy.bits .f32 = 32 ∨ (Rect.block (s := S4x1x25000) S1x1x25000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S25000x128.size a ≤ S100000x128.size a
  hwx0_1 : ∀ i : grid0.Coords, EltTy.bits .f32 = 32 ∨ (Rect.block (s := S100000x128) S25000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S2x1x128.size a
  hwx0_2 : ∀ i : grid0.Coords, EltTy.bits .f32 = 32 ∨ (Rect.block (s := S2x1x128) S1x1x128.size (cc0_transform_2 i) (hinb0_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S1x25000_S25000x128_S1x128_1_0_0_1_n_n : DotDims S1x25000 S25000x128 S1x128 where
  lhsContracting := [1]
  rhsContracting := [0]
  lhsNonContracting := [0]
  rhsNonContracting := [1]
  lhsBatch := []
  rhsBatch := []
  wf := dot_S1x25000_S25000x128_S1x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf

abbrev win0_0 : Pipeline.Window sig grid0 :=
  Pipeline.Window.ofSpec (Memref.whole main_v29) S1x1x25000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S25000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 70
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S2x1600000, .i32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S100000, .i32⟩
  | .hbm, ⟨9, _⟩ => ⟨S1700000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S128x128, .f32⟩
  | .hbm, ⟨47, _⟩ => ⟨S100000x128, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x1, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S128, .f32⟩
  | .hbm, ⟨69, _⟩ => ⟨S1x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_c_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  transposes_S128x128_S128x128_1_0 : S128x128.Transposes [1, 0] S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KernelTerm.lean ====
/-
  The kernel program's value, as ONE pure term of its four arguments.

  Before the launch the host computes, from the edge list alone, one weight per node: the in-degree histogram (an
  integer scatter of ones by destination), `deg = histogram + 1`, `dinv = deg ^ (-1/2)` where `deg > 0`, the
  normalisers gathered at every edge's destination and scatter-added by the edge's source (`outSum`), and
  `weights = dinv * outSum + dinv * dinv`, laid out as four rows of 25000 (`weights3`).
  The launch leaves in its [2, 1, 128] result, for each of the two halves of the node range, the product of the half's
  two weight rows with the matching 25000-row blocks of `x` (`regionSum`: stated at the exact instance, where the
  accumulation across the two grid points of a half is a plain sum).
  After the launch the host adds the two halves, applies `Wᵀ` and adds `100000 * bias` (`tail`).
-/
import proofs.«400708_j58239756534442_3_alg».proof.Proof.Gen.KernelIdeal
import Idealize.ShloMosaic.Lib.ValueIdx

noncomputable section

namespace Cert.KernelIdeal.Term

open Idealize.ShloMosaic Idealize.ShloMosaic.ValueIdx Cert.KernelIdeal
open Cert.KernelIdeal.Facts₀ Cert.KernelIdeal.Facts

variable {F : FTy → Type} [FloatOps F]

/-- Row 0 of the edge list: each edge's source node. -/
def srcRow (ei : IVec S2x1600000 32) : IVec S1600000 32 :=
  shapeCast S1600000 (extractStridedSlice S1x1600000 ![0, 0] ei slices_S2x1600000_S1x1600000_0_0) shapeCasts_S1x1600000_S1600000

/-- Row 1 of the edge list: each edge's destination node. -/
def dstRow (ei : IVec S2x1600000 32) : IVec S1600000 32 :=
  shapeCast S1600000 (extractStridedSlice S1x1600000 ![1, 0] ei slices_S2x1600000_S1x1600000_1_0) shapeCasts_S1x1600000_S1600000

/-- The in-degree histogram, in 32-bit words. -/
def inDegree (ei : IVec S2x1600000 32) : IVec S100000 32 :=
  Host.scatter scatter_S100000_S1600000x1_S1600000_n_0_0_1 IntOp.addi
    (broadcastInDim S100000 ![] bcast_S_S100000 (constantI S_ 32 0#32))
    (broadcastInDim S1600000x1 ![0] bcast_S1600000_S1600000x1_0 (dstRow ei))
    (broadcastInDim S1600000 ![] bcast_S_S1600000 (constantI S_ 32 1#32))

/-- The degree with the self-loop: the histogram as floats, plus one. -/
def degArr (ei : IVec S2x1600000 32) : FVec F S100000 .f32 :=
  addf (sitofp (F := F) .f32 (inDegree ei)) (broadcastInDim S100000 ![] bcast_S_S100000 (constant S_ .f32 0x3F800000#32))

/-- `deg ^ (-1/2)` where `deg > 0`, else zero. -/
def dinvArr (ei : IVec S2x1600000 32) : FVec F S100000 .f32 :=
  select (cmpf (F := F) .ogt (degArr ei) (broadcastInDim S100000 ![] bcast_S_S100000 (constant S_ .f32 0x00000000#32)))
    (Host.powf (degArr ei) (broadcastInDim S100000 ![] bcast_S_S100000 (constant S_ .f32 0xBF000000#32)))
    (broadcastInDim S100000 ![] bcast_S_S100000 (id (constant S_ .f32 0x00000000#32)))

/-- The destination indices as jnp's indexing reads them: a negative one counted from the end. -/
def wrapDst (ei : IVec S2x1600000 32) : IVec S1600000 32 :=
  select (cmpi .slt (dstRow ei) (broadcastInDim S1600000 ![] bcast_S_S1600000 (constantI S_ 32 0#32)))
    (addi (dstRow ei) (broadcastInDim S1600000 ![] bcast_S_S1600000 (constantI S_ 32 100000#32)))
    (dstRow ei)

/-- Each edge's destination normaliser. -/
def gathered (ei : IVec S2x1600000 32) : FVec F S1600000 .f32 :=
  Host.gather gather_S100000_S1600000x1_S1600000_n_0_n_n_0_1_1 (dinvArr (F := F) ei)
    (broadcastInDim S1600000x1 ![0] bcast_S1600000_S1600000x1_0 (wrapDst ei))

/-- Per node, the sum of the destination normalisers of the edges that leave it. -/
def outSum (ei : IVec S2x1600000 32) : FVec F S100000 .f32 :=
  Host.scatterAdd scatter_S100000_S1600000x1_S1600000_n_0_0_1
    (broadcastInDim S100000 ![] bcast_S_S100000 (constant S_ .f32 0x00000000#32))
    (broadcastInDim S1600000x1 ![0] bcast_S1600000_S1600000x1_0 (srcRow ei))
    (gathered (F := F) ei)

/-- The weight of each node's feature row. -/
def weights (ei : IVec S2x1600000 32) : FVec F S100000 .f32 :=
  addf (mulf (dinvArr (F := F) ei) (outSum (F := F) ei)) (mulf (dinvArr (F := F) ei) (dinvArr (F := F) ei))

/-- The weights as the launch's first operand: four rows of 25000. -/
def weights3 (ei : IVec S2x1600000 32) : FVec F S4x1x25000 .f32 :=
  shapeCast S4x1x25000 (weights (F := F) ei) shapeCasts_S100000_S4x1x25000

/-- What the launch leaves in its result, at the exact instance: half `o 0` of the node range, feature `o 2`. -/
def regionSum (c3 : FVec Ideal S4x1x25000 .f32) (x : FVec Ideal S100000x128 .f32) : FVec Ideal S2x1x128 .f32 :=
  fun o => ∑ j : Fin 2, ∑ r : Fin 25000,
    c3 (ix3 (⟨2 * (o 0).val + j.val, by have h : (o 0).val < 2 := (o 0).isLt; have := j.isLt; omega⟩ : Fin 4) (0 : Fin 1) r)
      * x (ix2 (⟨(2 * (o 0).val + j.val) * 25000 + r.val, by
            have h : (o 0).val < 2 := (o 0).isLt; have := j.isLt; have := r.isLt; omega⟩ : Fin 100000)
          (⟨(o 2).val, (o 2).isLt⟩ : Fin 128))

/-- The host's lines after the launch. -/
def tail (s3 : FVec F S2x1x128 .f32) (W : FVec F S128x128 .f32) (b : FVec F S128 .f32) : FVec F S1x128 .f32 :=
  addf
    (Host.dotGeneral dot_S1x128_S128x128_S1x128_1_0_0_1_n_n none
      (broadcastInDim S1x128 ![1] bcast_S128_S1x128_1
        (Host.reduceAdd (shapeCast S2x128 s3 shapeCasts_S2x1x128_S2x128) (constant S_ .f32 0x00000000#32) reducesTo_S2x128_S128_d0 h_S_))
      (transpose S128x128 [1, 0] W transposes_S128x128_S128x128_1_0))
    (broadcastInDim S1x128 ![1] bcast_S128_S1x128_1
      (mulf (broadcastInDim S128 ![] bcast_S_S128 (constant S_ .f32 0x47C35000#32)) b))

/-- The kernel program's result as a function of its arguments, at the exact instance. -/
def kernelTerm (x : FVec Ideal S100000x128 .f32) (W : FVec Ideal S128x128 .f32) (b : FVec Ideal S128 .f32)
    (ei : IVec S2x1600000 32) : FVec Ideal S1x128 .f32 :=
  tail (regionSum (weights3 (F := Ideal) ei) x) W b

end Cert.KernelIdeal.Term

end
-- ==== Proof.KernelRegion.lean ====
/-
  What the launch leaves in its result array, at the exact instance.

  The grid is 2 × 2: point `t = 2 i + j` stages weight row `t` (25000 weights) and the 25000-row block `t` of `x`,
  and the output block of half `i` stays in its staging buffer across `j = 0, 1`: at `j = 0` the body zeroes it and
  adds the row's product with the block, at `j = 1` it adds the next row's product; the block is written back after
  `j = 1`. So entry `(i, 0, f)` of the result is the sum over `j` and over the 25000 positions `r` of
  `weights3 (2 i + j, 0, r) * x ((2 i + j) * 25000 + r, f)`.
-/
import proofs.«400708_j58239756534442_3_alg».proof.Proof.Gen.KernelIdeal.Frame
import proofs.«400708_j58239756534442_3_alg».proof.Proof.KernelTerm
import Idealize.ShloMosaic.Lib.Pipeline.Value
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.Region

open Cert.KernelIdeal Cert.KernelIdeal.Gen Idealize.ShloMosaic.ValueIdx

/-! ## What each case of the body leaves in the output's staging buffer -/

section Pieces
variable {F : FTy → Type} [FloatOps F]

theorem zeros3 : (![0, 0, 0] : Fin 3 → Nat) = fun _ => 0 := funext fun a => by fin_cases a <;> rfl
theorem zeros2 : (![0, 0] : Fin 2 → Nat) = fun _ => 0 := funext fun a => by fin_cases a <;> rfl

/-- At a point with `j = 1` the body leaves, in the output's staging buffer holding `xo`, the update of `xo` by the
    point's weight row and block of `x`. -/
theorem out_B (c : Dev nD) (i : grid0.Coords) (a2 : Memref sig .tc .vmem S1x1x25000 .f32) (h2 : a2.IsWhole)
    (a3 : Memref sig .tc .vmem S25000x128 .f32) (h3 : a3.IsWhole) (a4 : Memref sig .tc .vmem S1x1x128 .f32) (h4 : a4.IsWhole)
    (hc : ¬cond0_0 i) (x0 : Vec F S1x1x25000 .f32) (x1 : Vec F S25000x128 .f32) (xo : Vec F S1x1x128 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero zeros3]
  simp only [View.readAt_eq_ld, h2.read_unread, h3.read_unread, h4.read_unread, View.ld_unit_zero (S := S1x1x25000) zeros3,
    View.ld_unit_zero (S := S25000x128) zeros2, View.ld_unit_zero (S := S1x1x128) zeros3]

/-- At a point with `j = 0` the body stores the zero block, reads it back, and leaves its update by the point's weight
    row and block of `x`. -/
theorem out_A (c : Dev nD) (i : grid0.Coords) (a2 : Memref sig .tc .vmem S1x1x25000 .f32) (h2 : a2.IsWhole)
    (a3 : Memref sig .tc .vmem S25000x128 .f32) (h3 : a3.IsWhole) (a4 : Memref sig .tc .vmem S1x1x128 .f32) (h4 : a4.IsWhole)
    (hc : cond0_0 i) (x0 : Vec F S1x1x25000 .f32) (x1 : Vec F S25000x128 .f32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x1x128) zeros3, View.readCov_unit_zero (S := S1x1x128) _ zeros3]
  simp only [View.readAt_eq_ld, h2.read_unread, h3.read_unread, View.ld_unit_zero (S := S1x1x25000) zeros3,
    View.ld_unit_zero (S := S25000x128) zeros2]

end Pieces

/-! ## The update read at an entry, over the extended reals -/

theorem lhs_axis0 (j : S1x128.Idx) (q : dot_S1x25000_S25000x128_S1x128_1_0_0_1_n_n.contr.Idx) :
    (dot_S1x25000_S25000x128_S1x128_1_0_0_1_n_n.lhsIdx j q 0).val = (j 0).val := by
  unfold DotDims.lhsIdx
  rw [dif_neg (show ¬(0 : Fin S1x25000.rank) ∈ dot_S1x25000_S25000x128_S1x128_1_0_0_1_n_n.lhsBatch by decide), dif_pos (show (0 : Fin S1x25000.rank) ∈ dot_S1x25000_S25000x128_S1x128_1_0_0_1_n_n.lhsNonContracting by decide)]
  rfl
theorem lhs_axis1 (j : S1x128.Idx) (q : dot_S1x25000_S25000x128_S1x128_1_0_0_1_n_n.contr.Idx) :
    (dot_S1x25000_S25000x128_S1x128_1_0_0_1_n_n.lhsIdx j q 1).val = (q ⟨0, by decide⟩).val :=
  dot_S1x25000_S25000x128_S1x128_1_0_0_1_n_n.lhsIdx_val_of_single rfl j q
theorem rhs_axis0 (j : S1x128.Idx) (q : dot_S1x25000_S25000x128_S1x128_1_0_0_1_n_n.contr.Idx) :
    (dot_S1x25000_S25000x128_S1x128_1_0_0_1_n_n.rhsIdx j q 0).val = (q ⟨0, by decide⟩).val :=
  dot_S1x25000_S25000x128_S1x128_1_0_0_1_n_n.rhsIdx_val_of_single rfl j q
theorem rhs_axis1 (j : S1x128.Idx) (q : dot_S1x25000_S25000x128_S1x128_1_0_0_1_n_n.contr.Idx) :
    (dot_S1x25000_S25000x128_S1x128_1_0_0_1_n_n.rhsIdx j q 1).val = (j 1).val := by
  unfold DotDims.rhsIdx
  rw [dif_neg (show ¬(1 : Fin S25000x128.rank) ∈ dot_S1x25000_S25000x128_S1x128_1_0_0_1_n_n.rhsBatch by decide), dif_pos (show (1 : Fin S25000x128.rank) ∈ dot_S1x25000_S25000x128_S1x128_1_0_0_1_n_n.rhsNonContracting by decide)]
  rfl

/-- The row-by-block product into the zero accumulator, at column `f`: the sum over the 25000 positions. -/
theorem product_apply (lhs : FVec Ideal S1x25000 .f32) (rhs : FVec Ideal S25000x128 .f32) (b : Fin 1) (f : Fin 128) :
    matmul dot_S1x25000_S25000x128_S1x128_1_0_0_1_n_n none lhs rhs (constant S1x128 .f32 0x00000000#32) (ix2 b f)
      = ∑ r : Fin 25000, lhs (ix2 b r) * rhs (ix2 r f) := by
  simp only [matmul]
  rw [Ideal.matmul_constant_zero_apply, ← Equiv.sum_comp (contrEquiv1 dot_S1x25000_S25000x128_S1x128_1_0_0_1_n_n 25000 rfl rfl).symm]
  refine Finset.sum_congr rfl fun k _ => ?_
  have hk := contrEquiv1_symm_val dot_S1x25000_S25000x128_S1x128_1_0_0_1_n_n 25000 rfl rfl k
  have el : dot_S1x25000_S25000x128_S1x128_1_0_0_1_n_n.lhsIdx (ix2 b f) ((contrEquiv1 dot_S1x25000_S25000x128_S1x128_1_0_0_1_n_n 25000 rfl rfl).symm k) = ix2 b k := funext fun a => Fin.ext (by
    match a with
    | ⟨0, _⟩ => exact lhs_axis0 _ _
    | ⟨1, _⟩ => exact (lhs_axis1 _ _).trans hk)
  have er : dot_S1x25000_S25000x128_S1x128_1_0_0_1_n_n.rhsIdx (ix2 b f) ((contrEquiv1 dot_S1x25000_S25000x128_S1x128_1_0_0_1_n_n 25000 rfl rfl).symm k) = ix2 k f := funext fun a => Fin.ext (by
    match a with
    | ⟨0, _⟩ => exact (rhs_axis0 _ _).trans hk
    | ⟨1, _⟩ => exact rhs_axis1 _ _)
  rw [el, er]

/-- A [1, 128] row stored as a [1, 1, 128] block reads, at `(a, b, f)`, the row at `(b, f)`. -/
theorem castUp_apply {α : Type} (y : S1x128.Idx → α) (h : S1x128.ShapeCasts S1x1x128) (a b : Fin 1) (f : Fin 128) :
    shapeCast S1x1x128 y h (ix3 a b f) = y (ix2 b f) :=
  shapeCast_apply y h _ _ (by
    have ha : a.val = 0 := by omega
    rw [Shape.rowMajor_val_three, Shape.rowMajor_val_two]
    show b.val * 128 + f.val = (a.val * 1 + b.val) * 128 + f.val
    rw [ha, Nat.zero_mul, Nat.zero_add])

/-- A [1, 1, 25000] block viewed as a [1, 25000] row reads, at `(b, r)`, the block at `(0, 0, r)`. -/
theorem castDown_apply {α : Type} (v : S1x1x25000.Idx → α) (h : S1x1x25000.ShapeCasts S1x1x25000) (h' : S1x1x25000.ShapeCasts S1x25000)
    (b : Fin 1) (r : Fin 25000) :
    shapeCast S1x25000 (shapeCast S1x1x25000 v h) h' (ix2 b r) = v (ix3 (0 : Fin 1) (0 : Fin 1) r) := by
  rw [shapeCast_self]
  exact shapeCast_apply v h' _ _ (by
    have hb : b.val = 0 := by omega
    rw [Shape.rowMajor_val_three, Shape.rowMajor_val_two]
    show (0 * 1 + 0) * 25000 + r.val = b.val * 25000 + r.val
    rw [hb, Nat.zero_mul, Nat.zero_add])

/-- The update at entry `(a, b, f)`: what the block held there plus the sum, over the 25000 positions, of the weight
    row times column `f` of the block of `x`. -/
theorem pay2_apply (v3 : FVec Ideal S1x1x25000 .f32) (v6 : FVec Ideal S25000x128 .f32) (v8 : FVec Ideal S1x1x128 .f32)
    (a b : Fin 1) (f : Fin 128) :
    k0_pay2 (F := Ideal) v3 v6 v8 (ix3 a b f)
      = v8 (ix3 a b f) + ∑ r : Fin 25000, v3 (ix3 (0 : Fin 1) (0 : Fin 1) r) * v6 (ix2 r f) := by
  unfold k0_pay2
  refine (addf_apply _ _ _).trans ?_
  refine congrArg₂ (· + ·) (congrFun (shapeCast_self v8 shapeCasts_S1x1x128_S1x1x128) (ix3 a b f)) ?_
  refine (castUp_apply _ shapeCasts_S1x128_S1x1x128 a b f).trans ?_
  refine (product_apply _ v6 b f).trans ?_
  exact Finset.sum_congr rfl fun r _ =>
    congrArg (· * v6 (ix2 r f)) (castDown_apply v3 shapeCasts_S1x1x25000_S1x1x25000 shapeCasts_S1x1x25000_S1x25000 b r)

/-- The zero block is zero. -/
theorem pay1_apply (j : S1x1x128.Idx) : k0_pay1 (F := Ideal) j = 0 := Ideal.ofBits_zero_f32

/-! ## The staged blocks, read where their windows say -/

variable (m : (ℓ : Loc nD τ sig) → Buf (Elt Ideal) ℓ) (ρ : Dev nD → PrngReg)

/-- The weight row staged at point `t`. -/
abbrev wblk (c : Dev nD) (t : Fin cfg0.N) : FVec Ideal S1x1x25000 .f32 := iblk m c 0 t
/-- The block of `x` staged at point `t`. -/
abbrev xblk (c : Dev nD) (t : Fin cfg0.N) : FVec Ideal S25000x128 .f32 := iblk m c 1 t
/-- The weights as the launch finds them. -/
abbrev warr (c : Dev nD) : FVec Ideal S4x1x25000 .f32 := V m c main_v29
/-- `x` as the launch finds it. -/
abbrev xarr (c : Dev nD) : FVec Ideal S100000x128 .f32 := V m c main_arg0

/-- The three index maps over the grid: point `t` stages weight row `t`, block `t` of `x`, and output block `t / 2`. -/
theorem index_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 3) = t.val / 2 ∧ win0_2.index t (1 : Fin 3) = 0 ∧ win0_2.index t (2 : Fin 3) = 0 :=
  (by decide +kernel : ∀ t : Fin grid0.N, _)

/-- The weight row staged at point `t`, at position `r`, is row `t` of the weights at `r`. -/
theorem wblk_apply (c : Dev nD) (t : Fin cfg0.N) (y : S1x1x25000.Idx) (k : S4x1x25000.Idx)
    (hk0 : (k 0).val = t.val) (hk2 : (k 2).val = (y 2).val) : wblk m c t y = warr m c k := by
  obtain ⟨e0, e1, e2, -⟩ := index_facts t
  have hy0 : (y 0).val < 1 := (y 0).isLt
  have hy1 : (y 1).val < 1 := (y 1).isLt
  have hk1 : (k 1).val < 1 := (k 1).isLt
  show (iblk m c 0 t : Vec Ideal S1x1x25000 .f32) y = (V m c main_v29 : S4x1x25000.Idx → Ideal .f32) k
  unfold iblk
  rw [View.read_apply]
  show V m c main_v29 _ = V m c main_v29 _
  congr 1
  funext a
  apply Fin.ext
  match a with
  | ⟨0, _⟩ => show win0_0.index t 0 * 1 + 1 * (y 0).val = (k 0).val; rw [e0, hk0]; omega
  | ⟨1, _⟩ => show win0_0.index t 1 * 1 + 1 * (y 1).val = (k 1).val; rw [e1]; omega
  | ⟨2, _⟩ => show win0_0.index t 2 * 25000 + 1 * (y 2).val = (k 2).val; rw [e2, hk2]; omega

/-- The block of `x` staged at point `t`, at `(r, f)`, is `x` at `(25000 t + r, f)`. -/
theorem xblk_apply (c : Dev nD) (t : Fin cfg0.N) (y : S25000x128.Idx) (k : S100000x128.Idx)
    (hk0 : (k 0).val = t.val * 25000 + (y 0).val) (hk1 : (k 1).val = (y 1).val) : xblk m c t y = xarr m c k := by
  obtain ⟨-, -, -, e3, e4, -⟩ := index_facts t
  show (iblk m c 1 t : Vec Ideal S25000x128 .f32) y = (V m c main_arg0 : S100000x128.Idx → Ideal .f32) k
  unfold iblk
  rw [View.read_apply]
  show V m c main_arg0 _ = V m c main_arg0 _
  congr 1
  funext a
  apply Fin.ext
  match a with
  | ⟨0, _⟩ => show win0_1.index t 0 * 25000 + 1 * (y 0).val = (k 0).val; rw [e3, hk0]; omega
  | ⟨1, _⟩ => show win0_1.index t 1 * 128 + 1 * (y 1).val = (k 1).val; rw [e4, hk1]; omega

/-! ## The accumulation across the two points of a half -/

/-- After a point with `j = 0` the staging buffer holds the update of the zero block by the point's blocks. -/
theorem outsAt_even (c : Dev nD) (t : Fin cfg0.N) (h0 : t.val % 2 = 0) :
    outsAt0 m c t.val t.isLt = k0_pay2 (F := Ideal) (wblk m c t) (xblk m c t) (k0_pay1 (F := Ideal)) := by
  rw [outsAt0_A m c t h0]
  exact out_A (F := Ideal) c (grid0.coords t) (ms0_0 t) (hs0_0 t) (ms0_1 t) (hs0_1 t) (ms0_2 t) (hs0_2 t)
    ((hcond0_0 t).mpr h0) (iblk m c 0 t) (iblk m c 1 t)

/-- After a point with `j = 1` it holds the update, by the point's blocks, of what the point before left. -/
theorem outsAt_odd (c : Dev nD) (t : Fin cfg0.N) (h0 : ¬t.val % 2 = 0) :
    outsAt0 m c t.val t.isLt = k0_pay2 (F := Ideal) (wblk m c t) (xblk m c t)
      (outsAt0 m c (t.val - 1) (Nat.lt_of_le_of_lt (Nat.sub_le _ _) t.isLt)) := by
  rw [outsAt0_B m c t h0]
  exact out_B (F := Ideal) c (grid0.coords t) (ms0_0 t) (hs0_0 t) (ms0_1 t) (hs0_1 t) (ms0_2 t) (hs0_2 t)
    (fun h => h0 ((hcond0_0 t).mp h)) (iblk m c 0 t) (iblk m c 1 t)
    (outsAt0 m c (t.val - 1) (Nat.lt_of_le_of_lt (Nat.sub_le _ _) t.isLt))

/-- So after a point with `j = 1`, entry `(a, b, f)` is the two points' sums of products, added. -/
theorem acc_apply (c : Dev nD) (t : Fin cfg0.N) (h1 : t.val % 2 = 1) (a b : Fin 1) (f : Fin 128) :
    outsAt0 m c t.val t.isLt (ix3 a b f)
      = (∑ r : Fin 25000, wblk m c ⟨t.val - 1, Nat.lt_of_le_of_lt (Nat.sub_le _ _) t.isLt⟩ (ix3 (0 : Fin 1) (0 : Fin 1) r)
            * xblk m c ⟨t.val - 1, Nat.lt_of_le_of_lt (Nat.sub_le _ _) t.isLt⟩ (ix2 r f))
        + ∑ r : Fin 25000, wblk m c t (ix3 (0 : Fin 1) (0 : Fin 1) r) * xblk m c t (ix2 r f) := by
  refine (congrFun (outsAt_odd m c t (by omega)) (ix3 a b f)).trans ?_
  refine (pay2_apply (wblk m c t) (xblk m c t) _ a b f).trans ?_
  refine congrArg (· + ∑ r : Fin 25000, wblk m c t (ix3 (0 : Fin 1) (0 : Fin 1) r) * xblk m c t (ix2 r f)) ?_
  refine (congrFun (outsAt_even m c ⟨t.val - 1, Nat.lt_of_le_of_lt (Nat.sub_le _ _) t.isLt⟩
    (by show (t.val - 1) % 2 = 0; omega)) (ix3 a b f)).trans ?_
  refine (pay2_apply _ _ _ a b f).trans ?_
  rw [pay1_apply, zero_add]

/-- That is the region's sum at the entry the block's entry sits at. -/
theorem odd_apply (c : Dev nD) (t : Fin cfg0.N) (h1 : t.val % 2 = 1) (y : S1x1x128.Idx) (o : S2x1x128.Idx)
    (ho0 : 2 * (o 0).val + 1 = t.val) (ho2 : (o 2).val = (y 2).val) :
    outsAt0 m c t.val t.isLt y = Term.regionSum (warr m c) (xarr m c) o := by
  obtain ⟨a, b, f, rfl⟩ : ∃ (a b : Fin 1) (f : Fin 128), y = ix3 a b f := ⟨y 0, y 1, y 2, eq_ix3 y⟩
  refine (acc_apply m c t h1 a b f).trans ?_
  unfold Term.regionSum
  rw [Fin.sum_univ_two]
  refine congrArg₂ (· + ·) (Finset.sum_congr rfl fun r _ => ?_) (Finset.sum_congr rfl fun r _ => ?_)
  · refine congrArg₂ (· * ·) (wblk_apply m c _ _ _ ?_ rfl) (xblk_apply m c _ _ _ ?_ ho2)
    · show 2 * (o 0).val + 0 = t.val - 1; omega
    · show (2 * (o 0).val + 0) * 25000 + r.val = (t.val - 1) * 25000 + r.val; omega
  · refine congrArg₂ (· * ·) (wblk_apply m c _ _ _ ?_ rfl) (xblk_apply m c _ _ _ ?_ ho2)
    · show 2 * (o 0).val + 1 = t.val; omega
    · show (2 * (o 0).val + 1) * 25000 + r.val = t.val * 25000 + r.val; omega

/-! ## The write-backs and the result array -/

/-- What a point with `j = 1` writes back is its block of the region's sum. -/
theorem flushed_eq (c : Dev nD) (t : Fin cfg0.N) (hf : (cfg0.win 2).flush t = true) :
    (dats (F := Ideal) m 0 c).flushed 2 t
      = ((cfg0.win 2).blk t).view.read (Elt Ideal) (Term.regionSum (V (F := Ideal) m c main_v29) (V (F := Ideal) m c main_arg0)) := by
  have h1 : t.val % 2 = 1 := (flush0_2 t).mp hf
  have hN : t.val < 4 := lt_of_lt_of_eq t.isLt (show cfg0.N = 4 from N_0)
  obtain ⟨-, -, -, -, -, e5, e6, e7⟩ := index_facts t
  show (cfg0.win 2).cut (grid0.coords t) ((dats (F := Ideal) m 0 c).after 2 t) = _
  rw [after0_2]
  funext y
  have hy0 : (y 0).val < 1 := (y 0).isLt
  refine (odd_apply m c t h1 y (((cfg0.win 2).blk t).view.emb y) ?_ ?_).trans ?_
  · show 2 * (win0_2.index t 0 * 1 + 1 * (y 0).val) + 1 = t.val; rw [e5]; omega
  · show win0_2.index t 2 * 128 + 1 * (y 2).val = (y 2).val; rw [e7]; omega
  · rfl

/-- The launch's result array after the run is `regionSum` of the two operand arrays as the launch finds them. -/
theorem region_value (c : Dev nD) :
    (dats (F := Ideal) m 0 c).arrAt 2 cfg0.N
      = Term.regionSum (V (F := Ideal) m c main_v29) (V (F := Ideal) m c main_arg0) := by
  refine (dats (F := Ideal) m 0 c).arrAt_eq_of_cover 2 _ (flushed_eq m c) fun i => ?_
  have hi0 : (i 0).val < 2 := (i 0).isLt
  have hi1 : (i 1).val < 1 := (i 1).isLt
  have hi2 : (i 2).val < 128 := (i 2).isLt
  have hlt : 2 * (i 0).val + 1 < cfg0.N := by rw [show cfg0.N = 4 from N_0]; omega
  obtain ⟨-, -, -, -, -, e5, e6, e7⟩ := index_facts ⟨2 * (i 0).val + 1, hlt⟩
  refine ⟨⟨2 * (i 0).val + 1, hlt⟩, (flush0_2 _).mpr (by show (2 * (i 0).val + 1) % 2 = 1; omega), ?_⟩
  show i ∈ ((View.whole main_v30).slice (win0_2.rect ⟨2 * (i 0).val + 1, hlt⟩)).set
  rw [View.set_slice_whole, Rect.mem_set_unit]
  intro a
  match a with
  | ⟨0, _⟩ =>
    show win0_2.index ⟨2 * (i 0).val + 1, hlt⟩ 0 * 1 ≤ (i 0).val ∧ (i 0).val < win0_2.index ⟨2 * (i 0).val + 1, hlt⟩ 0 * 1 + 1
    rw [e5]; dsimp only; omega
  | ⟨1, _⟩ =>
    show win0_2.index ⟨2 * (i 0).val + 1, hlt⟩ 1 * 1 ≤ (i 1).val ∧ (i 1).val < win0_2.index ⟨2 * (i 0).val + 1, hlt⟩ 1 * 1 + 1
    rw [e6]; omega
  | ⟨2, _⟩ =>
    show win0_2.index ⟨2 * (i 0).val + 1, hlt⟩ 2 * 128 ≤ (i 2).val ∧ (i 2).val < win0_2.index ⟨2 * (i 0).val + 1, hlt⟩ 2 * 128 + 128
    rw [e7]; omega

end Cert.KernelIdeal.Region

end
-- ==== Proof.KernelRun.lean ====
/-
  The kernel program's run, read: every weakly fair execution ends with the result buffer at `kernelTerm` of the four
  argument arrays, the arguments unchanged. The host's lines before the launch compute the launch's first operand
  (`weights3` of the edge list), the launch leaves `regionSum` (KernelRegion), the host's lines after it are `tail`.
-/
import proofs.«400708_j58239756534442_3_alg».proof.Proof.KernelRegion
import Idealize.ShloMosaic.Lib.StableHlo.Run

noncomputable section

open Idealize.ShloMosaic Idealize.ShloMosaic.TcCoe Idealize.SL.Sem
open Idealize.ShloMosaic.Pipeline (Dat)

namespace Cert.KernelIdeal.KRun

open Cert.KernelIdeal Cert.KernelIdeal.Gen

variable (m : (ℓ : Loc nD τ sig) → Buf (Elt Ideal) ℓ) (ρ : Dev nD → PrngReg)

/-- The launch's first operand, as the launch finds it, is the weights of the edge list. -/
theorem V_weights (c : Dev nD) :
    V (F := Ideal) m c main_v29 = Term.weights3 (F := Ideal) (m ((c.tc : Thread nD τ).loc main_arg3)) := by
  dsimp only [Gen.V, Gen.V0]
  simp only [Gen.hostOps0, Gen.hostOps0_1, Gen.hostOps0_2, List.flatten_cons, List.flatten_nil, List.append_nil,
    List.cons_append, List.nil_append]
  after_results_simp
  rfl

/-- The host's lines after the launch, run from any contents `W`: the result buffer ends at `tail` of what `W` holds
    at the launch's result and at the two arguments those lines read. -/
theorem tail_after (W : Valuation τ sig (Elt Ideal)) :
    StableHlo.after (hostOps1 (F := Ideal)) W (Proc.devRef .tc main_v39)
      = Term.tail (F := Ideal) (W (Proc.devRef .tc main_v30)) (W (Proc.devRef .tc main_arg1)) (W (Proc.devRef .tc main_arg2)) := by
  after_results
  rfl

/-- The result buffer after the host's last lines: they run from the launch's arrays as the launch leaves them
    (its result at `regionSum` of the weights and the features) and every other buffer as the launch found it. -/
theorem tail_value (c : Dev nD) :
    Pipeline.afterTail₀ cfgs (dats (F := Ideal) m) 0 (V0 m) [hostOps1] c main_v39
      = Term.kernelTerm (m ((c.tc : Thread nD τ).loc main_arg0)) (m ((c.tc : Thread nD τ).loc main_arg1))
          (m ((c.tc : Thread nD τ).loc main_arg2)) (m ((c.tc : Thread nD τ).loc main_arg3)) := by
  have h30 : Pipeline.withArrays spec0 c (V0 m c) (fun w => (dats (F := Ideal) m 0 c).arrAt w cfg0.N) (Proc.devRef .tc main_v30)
      = Term.regionSum (Term.weights3 (F := Ideal) (m ((c.tc : Thread nD τ).loc main_arg3))) (m ((c.tc : Thread nD τ).loc main_arg0)) :=
    (Pipeline.withArrays_arr spec0 launch0.win.arr_inj c (V0 m c) _ 2).trans
      ((Region.region_value m c).trans (by rw [V_weights, V_main_arg0]))
  have h1 : Pipeline.withArrays spec0 c (V0 m c) (fun w => (dats (F := Ideal) m 0 c).arrAt w cfg0.N) (Proc.devRef .tc main_arg1)
      = m ((c.tc : Thread nD τ).loc main_arg1) :=
    (Pipeline.withArrays_of_ne spec0 c (V0 m c) _ main_arg1 (by decide)).trans (V_main_arg1 m c)
  have h2 : Pipeline.withArrays spec0 c (V0 m c) (fun w => (dats (F := Ideal) m 0 c).arrAt w cfg0.N) (Proc.devRef .tc main_arg2)
      = m ((c.tc : Thread nD τ).loc main_arg2) :=
    (Pipeline.withArrays_of_ne spec0 c (V0 m c) _ main_arg2 (by decide)).trans (V_main_arg2 m c)
  unfold Pipeline.afterTail₀
  refine (tail_after _).trans ?_
  rw [h30, h1, h2]
  rfl

/-- The run: the result at `kernelTerm` of the arguments, the arguments unchanged. -/
theorem run : θ_run defs (onTc (τ := τ) (main (F := Ideal))) ⟨m, fun _ => 0, ρ⟩ fun r => ∀ c : Dev nD,
      r.2.mem ((c.tc : Thread nD τ).loc main_v39)
        = Term.kernelTerm (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v39 (Pipeline.mem_restRefs_of main_v39 (by decide) (by decide))).trans (tail_value m c),
      ((h c).1 1).trans (((dats m 0 c).arrAt_in 1 rfl _).trans ((A_eq m c 1).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KRun

end
-- ==== Proof.Spec.lean ====
/-
  The mathematics of the claim, over the reals, free of any program.

  A graph on `N` nodes has `E` directed edges `src e → dst e` and a self-loop at every node. With `deg v` the
  number of edges (the loop included) that END at `v` and `dn v = deg v ^ (-1/2)`, the graph convolution sends a
  message `(x[src e] · Wᵀ) * (dn (src e) * dn (dst e))` along every edge to its destination, adds the bias at
  every node, and the claim's result is the SUM OVER ALL NODES of that: `messageForm`.
  Summing over all nodes forgets where a message arrives; only where it starts matters. Collecting the edges by
  their SOURCE gives one weight per node, `nodeWeight u = dn u * (∑ over edges leaving u of dn (dst e)) + dn u²`,
  and the result is `(∑ u, nodeWeight u * x[u]) · Wᵀ + N * bias`: `weightedForm`. The two are equal for ANY
  function `dn` (`messageForm_eq_weightedForm`): the proof is a re-ordering of finite sums of reals.
-/
import Mathlib.Analysis.SpecialFunctions.Pow.Real
import Mathlib.Algebra.BigOperators.Fin

noncomputable section

namespace GcnSum

variable {N E D : ℕ}

/-- The weight a node's feature row carries into the total: its normaliser times the normalisers of the
    destinations of the edges that leave it, plus the self-loop's `dn u * dn u`. -/
def nodeWeight (src dst : Fin E → Fin N) (dn : Fin N → ℝ) (u : Fin N) : ℝ :=
  dn u * (∑ e : Fin E, if src e = u then dn (dst e) else 0) + dn u * dn u

/-- One weighted sum of the feature rows, then the linear map and `N` times the bias. -/
def weightedForm (src dst : Fin E → Fin N) (dn : Fin N → ℝ) (x : Fin N → Fin D → ℝ) (w : Fin D → Fin D → ℝ)
    (b : Fin D → ℝ) (f : Fin D) : ℝ :=
  (∑ k : Fin D, (∑ u : Fin N, nodeWeight src dst dn u * x u k) * w f k) + (N : ℝ) * b f

/-- Per destination node: the messages of the edges that end there, the self-loop's message, the bias; summed over
    the nodes. -/
def messageForm (src dst : Fin E → Fin N) (dn : Fin N → ℝ) (x : Fin N → Fin D → ℝ) (w : Fin D → Fin D → ℝ)
    (b : Fin D → ℝ) (f : Fin D) : ℝ :=
  ∑ v : Fin N,
    ((∑ e : Fin E, if dst e = v then (∑ k : Fin D, x (src e) k * w f k) * (dn (src e) * dn (dst e)) else 0)
      + (∑ l : Fin N, if l = v then (∑ k : Fin D, x l k * w f k) * (dn l * dn l) else 0)
      + b f)

/-- A double sum over `v` and `e` that keeps only the terms with `g e = v` is the single sum over `e`. -/
theorem sum_sum_indicator {α β : Type*} [Fintype α] [Fintype β] [DecidableEq β] (g : α → β) (A : α → ℝ) :
    (∑ v : β, ∑ e : α, if g e = v then A e else 0) = ∑ e : α, A e := by
  rw [Finset.sum_comm]
  refine Finset.sum_congr rfl fun e _ => ?_
  rw [Finset.sum_ite_eq]
  simp only [Finset.mem_univ, if_true]

/-- Summed over all nodes, messages may be collected by their source instead of their destination. -/
theorem messageForm_eq_weightedForm (src dst : Fin E → Fin N) (dn : Fin N → ℝ) (x : Fin N → Fin D → ℝ)
    (w : Fin D → Fin D → ℝ) (b : Fin D → ℝ) (f : Fin D) :
    messageForm src dst dn x w b f = weightedForm src dst dn x w b f := by
  unfold messageForm weightedForm nodeWeight
  -- The left side: summing over the destination node removes both indicator sums.
  have hL : (∑ v : Fin N,
      ((∑ e : Fin E, if dst e = v then (∑ k : Fin D, x (src e) k * w f k) * (dn (src e) * dn (dst e)) else 0)
        + (∑ l : Fin N, if l = v then (∑ k : Fin D, x l k * w f k) * (dn l * dn l) else 0)
        + b f))
      = (∑ e : Fin E, (∑ k : Fin D, x (src e) k * w f k) * (dn (src e) * dn (dst e)))
        + (∑ l : Fin N, (∑ k : Fin D, x l k * w f k) * (dn l * dn l)) + (N : ℝ) * b f := by
    rw [Finset.sum_add_distrib, Finset.sum_add_distrib,
      sum_sum_indicator dst (fun e => (∑ k : Fin D, x (src e) k * w f k) * (dn (src e) * dn (dst e))),
      sum_sum_indicator (fun l : Fin N => l) (fun l => (∑ k : Fin D, x l k * w f k) * (dn l * dn l)),
      Finset.sum_const, Finset.card_univ, Fintype.card_fin, nsmul_eq_mul]
  -- The right side: the linear map is pulled through the weighted sum, then the edges are collected by source.
  have hR : (∑ k : Fin D,
      (∑ u : Fin N, (dn u * (∑ e : Fin E, if src e = u then dn (dst e) else 0) + dn u * dn u) * x u k) * w f k)
      = (∑ e : Fin E, (∑ k : Fin D, x (src e) k * w f k) * (dn (src e) * dn (dst e)))
        + (∑ l : Fin N, (∑ k : Fin D, x l k * w f k) * (dn l * dn l)) := by
    have h1 : ∀ k : Fin D,
        (∑ u : Fin N, (dn u * (∑ e : Fin E, if src e = u then dn (dst e) else 0) + dn u * dn u) * x u k) * w f k
        = ∑ u : Fin N,
            (dn u * (∑ e : Fin E, if src e = u then dn (dst e) else 0) + dn u * dn u) * (x u k * w f k) := by
      intro k
      rw [Finset.sum_mul]
      exact Finset.sum_congr rfl fun u _ => by ring
    rw [Finset.sum_congr rfl fun k _ => h1 k, Finset.sum_comm]
    have h2 : ∀ u : Fin N,
        (∑ k : Fin D,
          (dn u * (∑ e : Fin E, if src e = u then dn (dst e) else 0) + dn u * dn u) * (x u k * w f k))
        = (∑ e : Fin E,
            if src e = u then (∑ k : Fin D, x (src e) k * w f k) * (dn (src e) * dn (dst e)) else 0)
          + (∑ k : Fin D, x u k * w f k) * (dn u * dn u) := by
      intro u
      rw [← Finset.mul_sum, add_mul, mul_assoc, Finset.sum_mul, Finset.mul_sum]
      congr 1
      · refine Finset.sum_congr rfl fun e _ => ?_
        by_cases h : src e = u
        · subst h
          simp only [if_true]
          ring
        · simp only [if_neg h, zero_mul, mul_zero]
      · ring
    rw [Finset.sum_congr rfl fun u _ => h2 u, Finset.sum_add_distrib,
      sum_sum_indicator src (fun e => (∑ k : Fin D, x (src e) k * w f k) * (dn (src e) * dn (dst e)))]
  rw [hL, hR]

/-- The number of edges that end at `v`, the self-loop counted. -/
def degree (dst : Fin E → Fin N) (v : Fin N) : ℕ := (Finset.univ.filter fun e : Fin E => dst e = v).card + 1

/-- The symmetric normaliser `deg ^ (-1/2)`. -/
def invSqrtDeg (dst : Fin E → Fin N) (v : Fin N) : ℝ := Real.rpow ((degree dst v : ℕ) : ℝ) (-(1 / 2))

end GcnSum

end
-- ==== Proof.Consts.lean ====
/-
  The float constants the two programs spell, as the extended reals their bit patterns denote: zero, one, minus one
  half and one hundred thousand (the node count the kernel multiplies the bias by).
-/
import Idealize.ShloMosaic.PureOps.Ideal

noncomputable section

namespace GcnSum.Consts

open Idealize.ShloMosaic

/-- `+0.0` denotes `0`. -/
theorem ofBits_zero : Ideal.ofBits .f32 0x00000000#32 = 0 := by
  simp [Ideal.ofBits, Ideal.ieee]

/-- `1.0` denotes `1`. -/
theorem ofBits_one : Ideal.ofBits .f32 0x3F800000#32 = ((1 : ℝ) : EReal) := by
  simp [Ideal.ofBits, Ideal.ieee, -EReal.coe_mul]; norm_num

/-- `-0.5` denotes `-1/2`. -/
theorem ofBits_neg_half : Ideal.ofBits .f32 0xBF000000#32 = ((-(1 / 2) : ℝ) : EReal) := by
  simp [Ideal.ofBits, Ideal.ieee, -EReal.coe_mul]; norm_num

/-- `100000.0` denotes the real `100000`. -/
theorem ofBits_nodes : Ideal.ofBits .f32 0x47C35000#32 = ((100000 : ℝ) : EReal) := by
  simp [Ideal.ofBits, Ideal.ieee, -EReal.coe_mul]; norm_num

end GcnSum.Consts

end
-- ==== Proof.LibScatterRows.lean ====
/-
  A scatter of one value per row into a vector (jax's `segment_sum` / `x.at[idx].add(v)` over a rank-1 operand):
  the scatter indices are an [n × 1] column of positions, the operand's one axis is inserted and start-indexed, the
  index vector lies on axis 1. Update `p` lands on entry `v` exactly when its start index, read signed, is `v`;
  an index outside the operand is dropped. So the float scatter-add is, entry by entry, the operand plus the sum of the
  updates whose index names the entry, and the integer scatter of ones into zeros COUNTS them.
-/
import Idealize.ShloMosaic.Lib.StableHlo.Predicate
import Idealize.ShloMosaic.PureOps.Ideal

noncomputable section

namespace GcnSum.Take

open Idealize.ShloMosaic Idealize.ShloMosaic.StableHlo.Predicate

/-- The start of update `j`'s window on the operand's one axis: the index in row `j` of the column, read signed
    (the axis is named by the map, the index vector's axis holds component 0, the other axis holds `j`'s coordinate). -/
private theorem start_rows {N n w : Nat} (d : ScatterDims ⟨1, ![N]⟩ ⟨2, ![n, 1]⟩ ⟨1, ![n]⟩)
    (hsd : d.scatterDimsToOperandDims = [0]) (hivd : d.indexVectorDim = 1)
    (idx : IVec ⟨2, ![n, 1]⟩ w) (j : (⟨1, ![n]⟩ : Shape).Idx) (a : Fin 1) :
    d.start j idx a = (idx (ixP (j 0))).toInt := by
  have ha0 : a = 0 := Subsingleton.elim _ _
  subst ha0
  have hm : (0 : Fin 1) ∈ d.scatterDimsToOperandDims := by rw [hsd]; exact List.mem_singleton.mpr rfl
  unfold ScatterDims.start
  rw [dif_pos hm]
  congr 2
  funext b
  match b with
  | ⟨0, _⟩ =>
    -- the scatter axis of the indices: it reads the update's one coordinate
    unfold ScatterDims.siIdx
    rw [dif_neg (by rw [hivd]; simp)]
    unfold ScatterDims.siCoord
    apply Fin.ext
    simp only [Fin.val_cast]
    have e : ∀ X : Fin 1, (j X).val = (j 0).val := fun X => by
      have hX : X = 0 := Subsingleton.elim _ _
      subst hX; rfl
    exact e _
  | ⟨1, _⟩ =>
    -- the index vector's axis: component 0, the position of operand axis 0 in the map
    unfold ScatterDims.siIdx
    rw [dif_pos (by rw [hivd])]
    apply Fin.ext
    show List.idxOf (0 : Fin 1) d.scatterDimsToOperandDims = 0
    rw [hsd]; simp

/-- The window coordinate on the operand's one axis is 0: the axis is inserted, so no update axis goes to it. -/
private theorem window_rows {N n : Nat} (d : ScatterDims ⟨1, ![N]⟩ ⟨2, ![n, 1]⟩ ⟨1, ![n]⟩)
    (hiw : d.insertedWindowDims = [0]) (j : (⟨1, ![n]⟩ : Shape).Idx) (a : Fin 1) :
    d.window j a = 0 := by
  have ha0 : a = 0 := Subsingleton.elim _ _
  subst ha0
  have hk : (0 : Fin 1) ∉ d.sKept := by
    unfold ScatterDims.sKept Shape.kept
    rw [hiw]; simp
  unfold ScatterDims.window
  rw [dif_neg hk]

/-- Update `j` lands on entry `v` exactly when its index, read signed, is `v` (an index below 0 or from `N` on lands
    nowhere, and is no entry's number). -/
private theorem resultIdx_rows {N n w : Nat} (d : ScatterDims ⟨1, ![N]⟩ ⟨2, ![n, 1]⟩ ⟨1, ![n]⟩)
    (hiw : d.insertedWindowDims = [0]) (hsd : d.scatterDimsToOperandDims = [0]) (hivd : d.indexVectorDim = 1)
    (idx : IVec ⟨2, ![n, 1]⟩ w) (j : (⟨1, ![n]⟩ : Shape).Idx) (v : Fin N) :
    d.resultIdx? j idx = some (Shape.Idx.ofFin v) ↔ (idx (ixP (j 0))).toInt = (v.val : ℤ) := by
  have hs := start_rows d hsd hivd idx j
  have hw := window_rows d hiw j
  unfold ScatterDims.resultIdx?
  split
  · rename_i h
    rw [Option.some.injEq]
    constructor
    · intro e
      have e0 : (d.start j idx 0 + (d.window j 0 : ℤ)).toNat = v.val :=
        congrArg (fun f : (⟨1, ![N]⟩ : Shape).Idx => (f (0 : Fin 1)).val) e
      have h0 := h 0
      rw [hs 0, hw 0] at h0 e0
      omega
    · intro e
      funext a
      have ha0 : a = 0 := Subsingleton.elim _ _
      subst ha0
      apply Fin.ext
      show (d.start j idx 0 + (d.window j 0 : ℤ)).toNat = v.val
      rw [hs 0, hw 0, e]; simp
  · rename_i h
    constructor
    · intro e; exact absurd e (by simp)
    · intro e
      exfalso; apply h
      intro a
      have ha0 : a = 0 := Subsingleton.elim _ _
      subst ha0
      rw [hs 0, hw 0, e]
      have hv : (v.val : ℤ) < (N : ℤ) := by exact_mod_cast v.isLt
      exact ⟨by simp, by simpa using hv⟩

/-- A rank-1 index set is its coordinate range. -/
private def rowsEquiv (n : Nat) : Fin n ≃ (⟨1, ![n]⟩ : Shape).Idx where
  toFun := Shape.Idx.ofFin
  invFun j := j 0
  left_inv p := Shape.Idx.ofFin_zero p
  right_inv j := (Shape.Idx.eq_ofFin j).symm

/-- The float scatter-add of a column of positions, at the exact instance, read at entry `v`. -/
theorem scatterAdd_rows {N n w : Nat} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1)
    (x : FVec Ideal ⟨1, ![N]⟩ .f32) (idx : IVec ⟨2, ![n, 1]⟩ w) (upd : FVec Ideal ⟨1, ![n]⟩ .f32) (v : Fin N) :
    Host.scatterAdd (F := Ideal) d x idx upd (Shape.Idx.ofFin v)
      = x (Shape.Idx.ofFin v)
        + ∑ p : Fin n, if (idx (ixP p)).toInt = (v.val : ℤ) then upd (Shape.Idx.ofFin p) else 0 := by
  -- at the exact instance the scatter-add IS the entry plus the sum of the updates that land on it
  show Ideal.hostScatterAdd d x idx upd _ = _
  unfold Ideal.hostScatterAdd
  congr 1
  -- the sum over the updates that land on `v`, as a sum over all positions of the update or 0
  rw [Finset.sum_filter]
  refine (Fintype.sum_equiv (rowsEquiv n) _ _ (fun p => ?_)).symm
  refine if_congr ?_ rfl rfl
  have h := resultIdx_rows d hiw hsd hivd idx (Shape.Idx.ofFin p) v
  rw [Shape.Idx.ofFin_zero] at h
  exact h.symm

/-- A left fold whose every step adds, at one place `k`, the word 1 when the step's item passes a test and nothing
    when it does not, ends at `k` on the start plus the number of items that pass (word addition is associative, and
    the word of a sum is the sum of the words). -/
private theorem foldl_count {ι κ : Type} (step : (κ → BitVec 32) → ι → (κ → BitVec 32)) (k : κ) (P : ι → Prop)
    [DecidablePred P] (hstep : ∀ r m, step r m k = r k + BitVec.ofNat 32 (if P m then 1 else 0)) (L : List ι)
    (r : κ → BitVec 32) :
    (L.foldl step r) k = r k + BitVec.ofNat 32 ((L.map fun m => if P m then 1 else 0).sum) := by
  induction L generalizing r with
  | nil => simp
  | cons m L ih =>
    rw [List.foldl_cons, ih, hstep, List.map_cons, List.sum_cons, BitVec.ofNat_add, BitVec.add_assoc]

/-- The integer scatter (word addition) of ones into zeros counts, at entry `v`, the positions whose index is `v`. -/
theorem scatter_addi_count {N n w : Nat} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1)
    (idx : IVec ⟨2, ![n, 1]⟩ w) (v : Fin N) (hn : n < 2 ^ 31) :
    (Host.scatter d IntOp.addi (fun _ => (0#32 : BitVec 32)) idx (fun _ => (1#32 : BitVec 32)) (Shape.Idx.ofFin v)).toInt
      = ((Finset.univ.filter fun p : Fin n => (idx (ixP p)).toInt = (v.val : ℤ)).card : ℤ) := by
  unfold Host.scatter
  -- the fold over the row-major positions ends, at `v`, on 0 plus the number of positions whose index is `v`
  rw [foldl_count _ (Shape.Idx.ofFin v)
    (fun m : Fin (⟨1, ![n]⟩ : Shape).numel => (idx (ixP (((⟨1, ![n]⟩ : Shape).rowMajor.symm m) 0))).toInt = (v.val : ℤ))]
  · rw [← Fin.sum_univ_def, BitVec.zero_add]
    -- that number, counted along the row-major numbering, is the number of rows whose index is `v`
    have hc : (∑ m : Fin (⟨1, ![n]⟩ : Shape).numel,
          if (idx (ixP (((⟨1, ![n]⟩ : Shape).rowMajor.symm m) 0))).toInt = (v.val : ℤ) then 1 else 0)
        = (Finset.univ.filter fun p : Fin n => (idx (ixP p)).toInt = (v.val : ℤ)).card := by
      rw [Finset.card_filter]
      exact Fintype.sum_equiv ((⟨1, ![n]⟩ : Shape).rowMajor.symm.trans (rowsEquiv n).symm) _ _ (fun m => rfl)
    rw [hc]
    -- at most `n` rows, fewer than 2³¹: the word reads signed as the number
    exact toInt_ofNat_small _ (lt_of_le_of_lt ((Finset.card_le_univ _).trans_eq (Fintype.card_fin n)) hn)
  · -- one step of the fold, read at `v`: it adds 1 when the position's update lands on `v`, else leaves the entry
    intro r m
    have hP := resultIdx_rows d hiw hsd hivd idx ((⟨1, ![n]⟩ : Shape).rowMajor.symm m) v
    dsimp only
    generalize d.resultIdx? ((⟨1, ![n]⟩ : Shape).rowMajor.symm m) idx = q at hP ⊢
    cases q with
    | none =>
      rw [if_neg (fun h => by simpa using hP.mpr h)]
      simp
    | some i =>
      rw [Option.some.injEq] at hP
      show (if Shape.Idx.ofFin v = i then IntOp.addi (r i) 1#32 else r (Shape.Idx.ofFin v)) = _
      by_cases hv : Shape.Idx.ofFin v = i
      · subst hv
        rw [if_pos rfl, if_pos (hP.mp rfl)]
        rfl
      · rw [if_neg hv, if_neg (fun h => hv (hP.mpr h).symm)]
        simp

end GcnSum.Take

end
-- ==== Proof.KernelWeights.lean ====
/-
  The kernel's per-node weights, at an index. With every edge's endpoints real nodes: the integer histogram at node `v`
  is the number of edges that end at `v` (far below 2³¹, so the word read signed is that number); `deg v` is that count
  plus one, a positive real, so the comparison picks the power and `dinv v = deg v ^ (-1/2)`; jnp's wrap-around of a
  negative index and the gather's clamp leave an in-range destination alone; the scatter-add by source sums the gathered
  normalisers over the edges that leave a node. Hence `weights u = nodeWeight u`.
-/
import proofs.«400708_j58239756534442_3_alg».proof.Proof.KernelTerm
import proofs.«400708_j58239756534442_3_alg».proof.Proof.Spec
import proofs.«400708_j58239756534442_3_alg».proof.Proof.Consts
import proofs.«400708_j58239756534442_3_alg».proof.Proof.LibScatterRows
import Idealize.ShloMosaic.Lib.StableHlo.Predicate
import Idealize.ShloMosaic.Lib.Pipeline.Value
import Idealize.ShloMosaic.Lib.ValueLayout
import Idealize.ShloMosaic.PureOps.Ideal.Laws

noncomputable section

namespace Cert.KernelIdeal.KWeights

open Idealize.ShloMosaic Idealize.ShloMosaic.ValueIdx Cert.KernelIdeal
open Idealize.ShloMosaic.StableHlo.Predicate
open Cert.KernelIdeal.Facts₀ Cert.KernelIdeal.Facts

/-! ## Small tools -/

/-- The rank-1 index at `k`, in its two spellings. -/
theorem ofFin_eq_ix1 {n : Nat} (k : Fin n) : Shape.Idx.ofFin k = ix1 k := by
  funext a
  match a with
  | ⟨0, _⟩ => rfl

/-- The coercion of the reals into the extended reals goes through a finite sum. -/
theorem coe_sum {ι : Type} (s : Finset ι) (f : ι → ℝ) :
    ((∑ i ∈ s, f i : ℝ) : EReal) = ∑ i ∈ s, ((f i : ℝ) : EReal) := by
  classical
  refine Finset.induction_on s ?_ ?_
  · simp
  · intro a s ha ih
    rw [Finset.sum_insert ha, Finset.sum_insert ha, EReal.coe_add, ih]

/-- A comparison "greater than" of extended reals that holds answers the bit `1`. -/
theorem cmp_ogt_of_lt {a b : EReal} (h : b < a) : Ideal.cmp .ogt a b = 1#1 := by
  show BitVec.ofBool (decide (b < a)) = 1#1
  rw [decide_eq_true h]
  rfl

/-- A vector read at the rank-1 index whose coordinate is `k`'s value is the vector at `k`. -/
theorem read_at {α : Type} {N : Nat} (x : (⟨1, ![N]⟩ : Shape).Idx → α) (k : Fin N) (m : Nat) (hm : m < N)
    (h : m = k.val) : x (Shape.Idx.ofFin ⟨m, hm⟩) = x (ix1 k) := by
  subst h
  rw [ofFin_eq_ix1]

/-! ## The two rows of the edge list -/

/-- Row 0 of the edge list at edge `e`. -/
theorem srcRow_apply (ei : IVec S2x1600000 32) (e : Fin 1600000) :
    Term.srcRow ei (ix1 e) = ei (ix2 (0 : Fin 2) e) := by
  unfold Term.srcRow
  rw [shapeCast_1a_a_apply, slice2_axis0_apply 0 ei _ (0 : Fin 1) e (0 : Fin 2) rfl]

/-- Row 1 of the edge list at edge `e`. -/
theorem dstRow_apply (ei : IVec S2x1600000 32) (e : Fin 1600000) :
    Term.dstRow ei (ix1 e) = ei (ix2 (1 : Fin 2) e) := by
  unfold Term.dstRow
  rw [shapeCast_1a_a_apply, slice2_axis0_apply 1 ei _ (0 : Fin 1) e (1 : Fin 2) rfl]

/-! ## The histogram, the degree, the normaliser -/

/-- The histogram word at node `v`, read signed, is the number of edges that end at `v`. -/
theorem inDegree_toInt (ei : IVec S2x1600000 32) (dst : Fin 1600000 → Fin 100000)
    (hdst : ∀ e, (ei (ix2 (1 : Fin 2) e)).toInt = ((dst e).val : ℤ)) (v : Fin 100000) :
    (Term.inDegree ei (ix1 v)).toInt = (((Finset.univ.filter fun e : Fin 1600000 => dst e = v).card : ℕ) : ℤ) := by
  have key := GcnSum.Take.scatter_addi_count scatter_S100000_S1600000x1_S1600000_n_0_0_1 rfl rfl rfl rfl
    (broadcastInDim S1600000x1 ![0] bcast_S1600000_S1600000x1_0 (Term.dstRow ei)) v (by norm_num)
  have hf : (Finset.univ.filter fun p : Fin 1600000 =>
        (broadcastInDim S1600000x1 ![0] bcast_S1600000_S1600000x1_0 (Term.dstRow ei) (ixP p)).toInt = (v.val : ℤ))
      = Finset.univ.filter fun e : Fin 1600000 => dst e = v := by
    refine Finset.filter_congr fun e _ => ?_
    rw [bcast_col1, ofFin_eq_ix1, dstRow_apply, hdst]
    constructor
    · intro h
      exact Fin.ext (by exact_mod_cast h)
    · intro h
      rw [h]
  rw [hf] at key
  rw [← ofFin_eq_ix1 v]
  exact key

/-- The degree at node `v`: the count of edges that end there, plus one. -/
theorem degArr_apply (ei : IVec S2x1600000 32) (dst : Fin 1600000 → Fin 100000)
    (hdst : ∀ e, (ei (ix2 (1 : Fin 2) e)).toInt = ((dst e).val : ℤ)) (v : Fin 100000) :
    Term.degArr (F := Ideal) ei (ix1 v) = (((GcnSum.degree dst v : ℕ) : ℝ) : EReal) := by
  show (((Term.inDegree ei (ix1 v)).toInt : ℝ) : EReal) + Ideal.ofBits .f32 0x3F800000#32 = _
  rw [inDegree_toInt ei dst hdst v, GcnSum.Consts.ofBits_one, ← EReal.coe_add]
  have hc : ∀ c : ℕ, (((c : ℤ) : ℝ) + 1 : ℝ) = ((c + 1 : ℕ) : ℝ) := fun c => by
    rw [Int.cast_natCast, Nat.cast_add, Nat.cast_one]
  rw [hc]
  rfl

/-- The normaliser array at node `v` is `invSqrtDeg`. -/
theorem dinvArr_apply (ei : IVec S2x1600000 32) (dst : Fin 1600000 → Fin 100000)
    (hdst : ∀ e, (ei (ix2 (1 : Fin 2) e)).toInt = ((dst e).val : ℤ)) (v : Fin 100000) :
    Term.dinvArr (F := Ideal) ei (ix1 v) = ((GcnSum.invSqrtDeg dst v : ℝ) : EReal) := by
  show Scalar.select
      (FloatOps.cmpf (F := Ideal) .ogt (Term.degArr (F := Ideal) ei (ix1 v)) (Ideal.ofBits .f32 0x00000000#32))
      (FloatOps.hostPowf (F := Ideal) (Term.degArr (F := Ideal) ei (ix1 v)) (Ideal.ofBits .f32 0xBF000000#32))
      (Ideal.ofBits .f32 0x00000000#32) = _
  rw [degArr_apply ei dst hdst v, GcnSum.Consts.ofBits_zero, GcnSum.Consts.ofBits_neg_half]
  -- the degree counts the self-loop, so it is positive
  have hdeg : 0 < GcnSum.degree dst v := Nat.succ_pos _
  have hpos : (0 : EReal) < (((GcnSum.degree dst v : ℕ) : ℝ) : EReal) :=
    EReal.coe_pos.mpr (by exact_mod_cast hdeg)
  rw [Ideal.cmpf_def, cmp_ogt_of_lt hpos, select_one]
  rfl

/-! ## The gathered normalisers and their sums by source -/

/-- A destination word is a node number, not negative: the wrap-around leaves it alone. -/
theorem wrapDst_apply (ei : IVec S2x1600000 32) (dst : Fin 1600000 → Fin 100000)
    (hdst : ∀ e, (ei (ix2 (1 : Fin 2) e)).toInt = ((dst e).val : ℤ)) (e : Fin 1600000) :
    Term.wrapDst ei (ix1 e) = Term.dstRow ei (ix1 e) := by
  show Scalar.select (IntOp.cmpi .slt (Term.dstRow ei (ix1 e)) 0#32)
      (IntOp.addi (Term.dstRow ei (ix1 e)) 100000#32) (Term.dstRow ei (ix1 e)) = _
  have hlt : ¬ ((Term.dstRow ei (ix1 e)).toInt < (0#32 : BitVec 32).toInt) := by
    rw [dstRow_apply, hdst]
    have h0 : (0#32 : BitVec 32).toInt = 0 := by decide
    rw [h0]
    exact not_lt.mpr (Int.natCast_nonneg _)
  have hs : IntOp.cmpi .slt (Term.dstRow ei (ix1 e)) 0#32 = 0#1 := by
    show BitVec.ofBool ((Term.dstRow ei (ix1 e)).slt 0#32) = 0#1
    have hb : (Term.dstRow ei (ix1 e)).slt 0#32 = false := decide_eq_false hlt
    rw [hb]
    rfl
  rw [hs, select_zero]

/-- Each edge's gathered value is its destination's normaliser: the clamp leaves an in-range node alone. -/
theorem gathered_apply (ei : IVec S2x1600000 32) (dst : Fin 1600000 → Fin 100000)
    (hdst : ∀ e, (ei (ix2 (1 : Fin 2) e)).toInt = ((dst e).val : ℤ)) (e : Fin 1600000) :
    Term.gathered (F := Ideal) ei (ix1 e) = ((GcnSum.invSqrtDeg dst (dst e) : ℝ) : EReal) := by
  unfold Term.gathered
  have hi : (broadcastInDim S1600000x1 ![0] bcast_S1600000_S1600000x1_0 (Term.wrapDst ei) (ixP e)).toInt
      = ((dst e).val : ℤ) := by
    rw [bcast_col1, ofFin_eq_ix1, wrapDst_apply ei dst hdst, dstRow_apply, hdst]
  have hmin : min (broadcastInDim S1600000x1 ![0] bcast_S1600000_S1600000x1_0 (Term.wrapDst ei) (ixP e)).toInt.toNat
      (100000 - 1) = (dst e).val := by
    rw [hi, Int.toNat_natCast]
    have hl : (dst e).val < 100000 := (dst e).isLt
    omega
  rw [← ofFin_eq_ix1 e,
    gather_take gather_S100000_S1600000x1_S1600000_n_0_n_n_0_1_1 rfl rfl rfl rfl _ _ e (by norm_num)]
  exact (read_at _ (dst e) _ _ hmin).trans (dinvArr_apply ei dst hdst (dst e))

/-- The scatter-add by source at node `u`: the sum of the destination normalisers of the edges that leave `u`. -/
theorem outSum_apply (ei : IVec S2x1600000 32) (src dst : Fin 1600000 → Fin 100000)
    (hsrc : ∀ e, (ei (ix2 (0 : Fin 2) e)).toInt = ((src e).val : ℤ))
    (hdst : ∀ e, (ei (ix2 (1 : Fin 2) e)).toInt = ((dst e).val : ℤ)) (u : Fin 100000) :
    Term.outSum (F := Ideal) ei (ix1 u)
      = ((∑ e : Fin 1600000, (if src e = u then GcnSum.invSqrtDeg dst (dst e) else 0) : ℝ) : EReal) := by
  unfold Term.outSum
  rw [← ofFin_eq_ix1 u,
    GcnSum.Take.scatterAdd_rows scatter_S100000_S1600000x1_S1600000_n_0_0_1 rfl rfl rfl rfl _ _ _ u, coe_sum]
  have hx : broadcastInDim S100000 ![] bcast_S_S100000 (constant (F := Ideal) S_ .f32 0x00000000#32) (Shape.Idx.ofFin u)
      = 0 := GcnSum.Consts.ofBits_zero
  rw [hx, zero_add]
  refine Finset.sum_congr rfl fun e _ => ?_
  rw [bcast_col1, ofFin_eq_ix1, srcRow_apply, hsrc, gathered_apply ei dst hdst e]
  by_cases h : src e = u
  · rw [if_pos h, if_pos (by rw [h])]
  · rw [if_neg h, if_neg (fun h' => h (Fin.ext (by exact_mod_cast h'))), EReal.coe_zero]

/-- The weight array at node `u` is `nodeWeight`. -/
theorem weights_apply (ei : IVec S2x1600000 32) (src dst : Fin 1600000 → Fin 100000)
    (hsrc : ∀ e, (ei (ix2 (0 : Fin 2) e)).toInt = ((src e).val : ℤ))
    (hdst : ∀ e, (ei (ix2 (1 : Fin 2) e)).toInt = ((dst e).val : ℤ)) (u : Fin 100000) :
    Term.weights (F := Ideal) ei (ix1 u)
      = ((GcnSum.nodeWeight src dst (GcnSum.invSqrtDeg dst) u : ℝ) : EReal) := by
  unfold Term.weights
  rw [addf_apply, mulf_apply, mulf_apply, dinvArr_apply ei dst hdst u, outSum_apply ei src dst hsrc hdst u,
    ← EReal.coe_mul, ← EReal.coe_mul, ← EReal.coe_add]
  rfl

end Cert.KernelIdeal.KWeights

end
-- ==== Proof.KernelValue.lean ====
/-
  The kernel's term at an index: entry `(0, f)` of `kernelTerm` is the real number `weightedForm` of the decoded
  arguments. The histogram counts each node's incoming edges, so `deg` is that count plus one, a positive real, and
  `dinv` its power `-1/2`; the gather at an in-range destination reads that node; the scatter-add by source sums
  over the edges that leave a node; the launch's blocked sums re-index to one sum over all nodes.
-/
import proofs.«400708_j58239756534442_3_alg».proof.Proof.KernelTerm
import proofs.«400708_j58239756534442_3_alg».proof.Proof.Spec
import proofs.«400708_j58239756534442_3_alg».proof.Proof.Consts
import proofs.«400708_j58239756534442_3_alg».proof.Proof.KernelWeights
import Idealize.ShloMosaic.Lib.StableHlo.Predicate
import Idealize.ShloMosaic.Lib.Pipeline.Value
import Idealize.ShloMosaic.Lib.ValueLayout
import Idealize.ShloMosaic.PureOps.Ideal.Laws

noncomputable section

namespace Cert.KernelIdeal.KValue

open Idealize.ShloMosaic Idealize.ShloMosaic.ValueIdx Cert.KernelIdeal
open Cert.KernelIdeal.Facts₀ Cert.KernelIdeal.Facts

/-- The coercion of a finite real sum is the sum of the coercions. -/
theorem coe_sum {ι : Type*} (s : Finset ι) (f : ι → ℝ) :
    ((∑ i ∈ s, f i : ℝ) : EReal) = ∑ i ∈ s, ((f i : ℝ) : EReal) := by
  classical
  refine Finset.induction_on s (by simp) fun a s ha ih => ?_
  rw [Finset.sum_insert ha, Finset.sum_insert ha, EReal.coe_add, ih]

/-- A sum over `m * n` positions is the double sum over `m` blocks of `n`. -/
theorem sum_fin_mul {M : Type*} [AddCommMonoid M] (m n : ℕ) (g : Fin (m * n) → M) :
    ∑ u : Fin (m * n), g u
      = ∑ a : Fin m, ∑ b : Fin n, g ⟨a.val * n + b.val, by
          calc a.val * n + b.val < a.val * n + n := Nat.add_lt_add_left b.isLt _
            _ = (a.val + 1) * n := (Nat.succ_mul _ _).symm
            _ ≤ m * n := Nat.mul_le_mul_right _ a.isLt⟩ := by
  rw [← Equiv.sum_comp finProdFinEquiv g, Fintype.sum_prod_type]
  refine Finset.sum_congr rfl fun a _ => Finset.sum_congr rfl fun b _ => congrArg g (Fin.ext ?_)
  show b.val + n * a.val = a.val * n + b.val
  rw [Nat.mul_comm, Nat.add_comm]

/-- The four blocks of 25000 nodes, two per half, cover the node range once. -/
theorem sum_blocks {M : Type*} [AddCommMonoid M] (g : Fin 100000 → M) :
    (∑ i : Fin 2, ∑ j : Fin 2, ∑ r : Fin 25000,
        g ⟨(2 * i.val + j.val) * 25000 + r.val, by have := i.isLt; have := j.isLt; have := r.isLt; omega⟩)
      = ∑ u : Fin 100000, g u := by
  have h4 : ∑ u : Fin 100000, g u
      = ∑ t : Fin 4, ∑ r : Fin 25000, g ⟨t.val * 25000 + r.val, by have := t.isLt; have := r.isLt; omega⟩ :=
    sum_fin_mul 4 25000 g
  have h2 : ∀ G : Fin 4 → M, ∑ t : Fin 4, G t
      = ∑ i : Fin 2, ∑ j : Fin 2, G ⟨i.val * 2 + j.val, by have := i.isLt; have := j.isLt; omega⟩ :=
    fun G => sum_fin_mul 2 2 G
  rw [h4, h2]
  refine Finset.sum_congr rfl fun i _ => Finset.sum_congr rfl fun j _ => Finset.sum_congr rfl fun r _ =>
    congrArg g (Fin.ext ?_)
  show (2 * i.val + j.val) * 25000 + r.val = (i.val * 2 + j.val) * 25000 + r.val
  omega

/-- The weights laid out as four rows: row `t`, position `r` is node `t * 25000 + r`. -/
theorem weights3_apply (ei : IVec S2x1600000 32) (t : Fin 4) (r : Fin 25000) :
    Term.weights3 (F := Ideal) ei (ix3 t (0 : Fin 1) r)
      = Term.weights (F := Ideal) ei
          (ix1 (⟨t.val * 25000 + r.val, by have := t.isLt; have := r.isLt; omega⟩ : Fin 100000)) := by
  unfold Term.weights3
  generalize Term.weights (F := Ideal) ei = y
  exact shapeCast_apply y shapeCasts_S100000_S4x1x25000 _ _ (by
    rewrite [Shape.rowMajor_val_one, Shape.rowMajor_val_three]
    show t.val * 25000 + r.val = (t.val * 1 + 0) * 25000 + r.val
    omega)

/-- The launch's result with its unit axis dropped. -/
theorem cast2_apply (s3 : FVec Ideal S2x1x128 .f32) (i : Fin 2) (k : Fin 128) :
    shapeCast S2x128 s3 shapeCasts_S2x1x128_S2x128 (ix2 i k) = s3 (ix3 i (0 : Fin 1) k) :=
  shapeCast_apply s3 shapeCasts_S2x1x128_S2x128 _ _ (by
    rewrite [Shape.rowMajor_val_three, Shape.rowMajor_val_two]
    show (i.val * 1 + 0) * 128 + k.val = i.val * 128 + k.val
    omega)

/-- The sum of the two halves at feature `k`. -/
theorem reduce_apply (y : FVec Ideal S2x128 .f32) (k : Fin 128) :
    Host.reduceAdd y (constant S_ .f32 0x00000000#32) reducesTo_S2x128_S128_d0 h_S_ (ix1 k)
      = ∑ i : Fin 2, y (ix2 i k) := by
  simp only [Host.reduceAdd, Ideal.hostReduceAdd_def]
  rw [Ideal.hostReduceAdd_single reducesTo_S2x128_S128_d0 (by decide)]
  rw [constant_apply, GcnSum.Consts.ofBits_zero, zero_add]
  refine Finset.sum_congr rfl fun i _ => ?_
  exact congrArg y (funext fun a => Fin.ext (by match a with | ⟨0, _⟩ => rfl | ⟨1, _⟩ => rfl))

/-- The left operand of the product is read at the result's row and the contraction's position … -/
theorem lhs_dot_S1x128_S128x128_S1x128_1_0_0_1_n_n_0 (i : S1x128.Idx) (q : dot_S1x128_S128x128_S1x128_1_0_0_1_n_n.contr.Idx) :
    (dot_S1x128_S128x128_S1x128_1_0_0_1_n_n.lhsIdx i q 0).val = (i 0).val := by
  unfold DotDims.lhsIdx
  rw [dif_neg (show ¬(0 : Fin S1x128.rank) ∈ dot_S1x128_S128x128_S1x128_1_0_0_1_n_n.lhsBatch by decide),
    dif_pos (show (0 : Fin S1x128.rank) ∈ dot_S1x128_S128x128_S1x128_1_0_0_1_n_n.lhsNonContracting by decide)]
  rfl
theorem lhs_dot_S1x128_S128x128_S1x128_1_0_0_1_n_n_1 (i : S1x128.Idx) (q : dot_S1x128_S128x128_S1x128_1_0_0_1_n_n.contr.Idx) :
    (dot_S1x128_S128x128_S1x128_1_0_0_1_n_n.lhsIdx i q 1).val = (q ⟨0, by decide⟩).val :=
  dot_S1x128_S128x128_S1x128_1_0_0_1_n_n.lhsIdx_val_of_single rfl i q
/-- … and the right operand at the contraction's position and the result's column. -/
theorem rhs_dot_S1x128_S128x128_S1x128_1_0_0_1_n_n_0 (i : S1x128.Idx) (q : dot_S1x128_S128x128_S1x128_1_0_0_1_n_n.contr.Idx) :
    (dot_S1x128_S128x128_S1x128_1_0_0_1_n_n.rhsIdx i q 0).val = (q ⟨0, by decide⟩).val :=
  dot_S1x128_S128x128_S1x128_1_0_0_1_n_n.rhsIdx_val_of_single rfl i q
theorem rhs_dot_S1x128_S128x128_S1x128_1_0_0_1_n_n_1 (i : S1x128.Idx) (q : dot_S1x128_S128x128_S1x128_1_0_0_1_n_n.contr.Idx) :
    (dot_S1x128_S128x128_S1x128_1_0_0_1_n_n.rhsIdx i q 1).val = (i 1).val := by
  unfold DotDims.rhsIdx
  rw [dif_neg (show ¬(1 : Fin S128x128.rank) ∈ dot_S1x128_S128x128_S1x128_1_0_0_1_n_n.rhsBatch by decide),
    dif_pos (show (1 : Fin S128x128.rank) ∈ dot_S1x128_S128x128_S1x128_1_0_0_1_n_n.rhsNonContracting by decide)]
  rfl

/-- The row-times-matrix product at column `f` is the sum over the contracted position. -/
theorem dot_apply (v : FVec Ideal S1x128 .f32) (Y : FVec Ideal S128x128 .f32) (f : Fin 128) :
    Host.dotGeneral dot_S1x128_S128x128_S1x128_1_0_0_1_n_n none v Y (ix2 (0 : Fin 1) f)
      = ∑ k : Fin 128, v (ix2 (0 : Fin 1) k) * Y (ix2 k f) := by
  simp only [Host.dotGeneral]
  rw [Ideal.dotGeneral_apply, ← Equiv.sum_comp (contrEquiv1 dot_S1x128_S128x128_S1x128_1_0_0_1_n_n 128 rfl rfl).symm]
  refine Finset.sum_congr rfl fun k _ => ?_
  have hk := contrEquiv1_symm_val dot_S1x128_S128x128_S1x128_1_0_0_1_n_n 128 rfl rfl k
  have el : dot_S1x128_S128x128_S1x128_1_0_0_1_n_n.lhsIdx (ix2 (0 : Fin 1) f) ((contrEquiv1 dot_S1x128_S128x128_S1x128_1_0_0_1_n_n 128 rfl rfl).symm k) = ix2 (0 : Fin 1) k :=
    funext fun a => Fin.ext (by
      match a with
      | ⟨0, _⟩ => exact lhs_dot_S1x128_S128x128_S1x128_1_0_0_1_n_n_0 _ _
      | ⟨1, _⟩ => exact (lhs_dot_S1x128_S128x128_S1x128_1_0_0_1_n_n_1 _ _).trans hk)
  have er : dot_S1x128_S128x128_S1x128_1_0_0_1_n_n.rhsIdx (ix2 (0 : Fin 1) f) ((contrEquiv1 dot_S1x128_S128x128_S1x128_1_0_0_1_n_n 128 rfl rfl).symm k) = ix2 k f :=
    funext fun a => Fin.ext (by
      match a with
      | ⟨0, _⟩ => exact (rhs_dot_S1x128_S128x128_S1x128_1_0_0_1_n_n_0 _ _).trans hk
      | ⟨1, _⟩ => exact rhs_dot_S1x128_S128x128_S1x128_1_0_0_1_n_n_1 _ _)
  rw [el, er]

/-- A vector laid along the second axis of a one-row rectangle reads, at `(0, f)`, the vector at `f`. -/
theorem row_apply {α : Type} (v : S128.Idx → α) (f : Fin 128) :
    broadcastInDim S1x128 ![1] bcast_S128_S1x128_1 v (ix2 (0 : Fin 1) f) = v (ix1 f) :=
  broadcastInDim_apply _ bcast_S128_S1x128_1 v _ _ (fun a => match a with
    | ⟨0, _⟩ => by show f.val = if (128 : Nat) = 1 then 0 else f.val; rw [if_neg (by decide)])

/-- The bias term: one hundred thousand times the bias. -/
theorem bias_apply (b : FVec Ideal S128 .f32) (br : Fin 128 → ℝ) (hb : ∀ g, b (ix1 g) = ((br g : ℝ) : EReal))
    (f : Fin 128) :
    broadcastInDim S1x128 ![1] bcast_S128_S1x128_1
        (mulf (broadcastInDim S128 ![] bcast_S_S128 (constant S_ .f32 0x47C35000#32)) b) (ix2 (0 : Fin 1) f)
      = ((100000 * br f : ℝ) : EReal) := by
  rw [row_apply, mulf_apply, StableHlo.Predicate.bcast_scalar bcast_S_S128 h_S_, constant_apply,
    GcnSum.Consts.ofBits_nodes, hb, ← EReal.coe_mul]

/-- What the launch leaves at half `i`, feature `k`: the two blocks of the half, weight times feature. -/
theorem regionSum_apply (c3 : FVec Ideal S4x1x25000 .f32) (x : FVec Ideal S100000x128 .f32) (i : Fin 2) (k : Fin 128) :
    Term.regionSum c3 x (ix3 i (0 : Fin 1) k)
      = ∑ j : Fin 2, ∑ r : Fin 25000,
          c3 (ix3 (⟨2 * i.val + j.val, by have := i.isLt; have := j.isLt; omega⟩ : Fin 4) (0 : Fin 1) r)
            * x (ix2 (⟨(2 * i.val + j.val) * 25000 + r.val, by
                  have := i.isLt; have := j.isLt; have := r.isLt; omega⟩ : Fin 100000) k) := rfl

/-- Entry `(0, f)` of the kernel's term is `weightedForm` of the arguments read as reals and nodes. -/
theorem kernelTerm_apply (x : FVec Ideal S100000x128 .f32) (W : FVec Ideal S128x128 .f32) (b : FVec Ideal S128 .f32)
    (ei : IVec S2x1600000 32)
    (xr : Fin 100000 → Fin 128 → ℝ) (wr : Fin 128 → Fin 128 → ℝ) (br : Fin 128 → ℝ) (src dst : Fin 1600000 → Fin 100000)
    (hx : ∀ u k, x (ix2 u k) = ((xr u k : ℝ) : EReal)) (hw : ∀ g k, W (ix2 g k) = ((wr g k : ℝ) : EReal))
    (hb : ∀ g, b (ix1 g) = ((br g : ℝ) : EReal))
    (hsrc : ∀ e, (ei (ix2 (0 : Fin 2) e)).toInt = ((src e).val : ℤ))
    (hdst : ∀ e, (ei (ix2 (1 : Fin 2) e)).toInt = ((dst e).val : ℤ)) (f : Fin 128) :
    Term.kernelTerm x W b ei (ix2 (0 : Fin 1) f)
      = ((GcnSum.weightedForm src dst (GcnSum.invSqrtDeg dst) xr wr br f : ℝ) : EReal) := by
  -- The result is the row-times-matrix product plus the bias term; the product is a sum over the contracted feature.
  unfold Term.kernelTerm Term.tail
  rw [addf_apply, bias_apply b br hb f, dot_apply]
  -- Each summand: the two halves' blocked sums are one sum over all nodes of weight times feature, times `wr f k`.
  have hterm : ∀ k : Fin 128,
      broadcastInDim S1x128 ![1] bcast_S128_S1x128_1
          (Host.reduceAdd
            (shapeCast S2x128 (Term.regionSum (Term.weights3 (F := Ideal) ei) x) shapeCasts_S2x1x128_S2x128)
            (constant S_ .f32 0x00000000#32) reducesTo_S2x128_S128_d0 h_S_) (ix2 (0 : Fin 1) k)
        * transpose S128x128 [1, 0] W transposes_S128x128_S128x128_1_0 (ix2 k f)
      = (((∑ u : Fin 100000, GcnSum.nodeWeight src dst (GcnSum.invSqrtDeg dst) u * xr u k) * wr f k : ℝ) : EReal) := by
    intro k
    rw [row_apply, reduce_apply, transpose_ix2_apply, hw, EReal.coe_mul]
    refine congrArg (· * ((wr f k : ℝ) : EReal)) ?_
    rw [← sum_blocks (fun u => GcnSum.nodeWeight src dst (GcnSum.invSqrtDeg dst) u * xr u k), coe_sum]
    refine Finset.sum_congr rfl fun i _ => ?_
    rw [cast2_apply, regionSum_apply, coe_sum]
    refine Finset.sum_congr rfl fun j _ => ?_
    rw [coe_sum]
    refine Finset.sum_congr rfl fun r _ => ?_
    rw [weights3_apply, KWeights.weights_apply ei src dst hsrc hdst, hx, ← EReal.coe_mul]
  -- The real sums and the real bias term add up to `weightedForm`, whose node count is the literal 100000.
  rw [Finset.sum_congr rfl fun k _ => hterm k, ← coe_sum, ← EReal.coe_add]
  unfold GcnSum.weightedForm
  rw [Nat.cast_ofNat]

end Cert.KernelIdeal.KValue

end
-- ==== Proof.RefNorm.lean ====
/-
  The reference's index arrays and normalisers, at an index. Its 1700000 messages are the 1600000 edges followed by
  one self-loop per node (the edge rows concatenated with the node numbering): message `p` goes from `msgSrc p` to
  `msgDst p`. The degree is the exact sum of a one per message by destination, so `deg v` is the number of edges
  that end at `v` plus one (the loop), a positive real; the comparison picks the power, `dinv v = deg v ^ (-1/2)`;
  jnp's wrap-around of a negative index and the gather's clamp leave an in-range node alone, so the per-message
  normalisation is `dinv (msgSrc p) * dinv (msgDst p)`.
-/
import proofs.«400708_j58239756534442_3_alg».proof.Proof.ReferenceRead
import proofs.«400708_j58239756534442_3_alg».proof.Proof.Spec
import proofs.«400708_j58239756534442_3_alg».proof.Proof.Consts
import proofs.«400708_j58239756534442_3_alg».proof.Proof.LibScatterRows
import Idealize.ShloMosaic.Lib.StableHlo.Predicate
import Idealize.ShloMosaic.Lib.ValueLayout
import Mathlib.Algebra.BigOperators.Fin

noncomputable section

namespace Cert.ReferenceIdeal.RNorm

open Idealize.ShloMosaic Idealize.ShloMosaic.ValueIdx Cert.ReferenceIdeal Cert.ReferenceIdeal.Read

/-- Message `p`'s end of kind `nd` (`nd = src` or `nd = dst`): the edge's for the first 1600000 messages, the
    loop's node after them. -/
def msgNode (nd : Fin 1600000 → Fin 100000) (p : Fin 1700000) : Fin 100000 :=
  if h : p.val < 1600000 then nd ⟨p.val, h⟩ else ⟨p.val - 1600000, by have := p.isLt; omega⟩

/-- The rank-1 index built from a coordinate, in its two spellings. -/
theorem ix1_eq_ofFin {n : Nat} (k : Fin n) : (ix1 k : (⟨1, ![n]⟩ : Shape).Idx) = Shape.Idx.ofFin k := by
  funext a; match a with | ⟨0, _⟩ => rfl

/-- The edges-then-nodes concatenation at a position among the edges reads the edge vector there. -/
theorem concat_lt {α : Type} (a : S1600000.Idx → α) (b : S100000.Idx → α)
    (h : Shape.Concatenates [S1600000, S100000] S1700000 0) (p : Fin 1700000) (hp : p.val < 1600000) :
    concatenate S1700000 0 [⟨S1600000, a⟩, ⟨S100000, b⟩] h (ix1 p) = a (ix1 ⟨p.val, hp⟩) :=
  concatenate_pair_apply_left (0 : Fin S1700000.rank) a b h (ix1 p) rfl (ix1 ⟨p.val, hp⟩)
    (fun c => match c with | ⟨0, _⟩ => rfl)

/-- … and at a position past the edges reads the node vector, the edge count less. -/
theorem concat_ge {α : Type} (a : S1600000.Idx → α) (b : S100000.Idx → α)
    (h : Shape.Concatenates [S1600000, S100000] S1700000 0) (p : Fin 1700000) (hp : 1600000 ≤ p.val) :
    concatenate S1700000 0 [⟨S1600000, a⟩, ⟨S100000, b⟩] h (ix1 p)
      = b (ix1 ⟨p.val - 1600000, by have := p.isLt; omega⟩) :=
  concatenate_pair_apply_right (0 : Fin S1700000.rank) a b h (ix1 p) rfl rfl
    (ix1 ⟨p.val - 1600000, by have := p.isLt; omega⟩)
    (fun c hc => absurd (Subsingleton.elim _ _) hc)
    (by show p.val - 1600000 + 1600000 = p.val; omega)

/-- Row 0 of the edge list as a vector, at an edge. -/
theorem v1_apply (ei : IVec S2x1600000 32) (e : Fin 1600000) :
    val_main_v1 (F := Ideal) ei (ix1 e) = ei (ix2 (0 : Fin 2) e) := by
  rw [val_main_v1_apply, val_main_v0_apply]
  congr 1
  funext a
  match a with
  | ⟨0, _⟩ => rfl
  | ⟨1, _⟩ => exact Fin.ext (Nat.mod_eq_of_lt e.isLt)

/-- Row 1 of the edge list as a vector, at an edge. -/
theorem v3_apply (ei : IVec S2x1600000 32) (e : Fin 1600000) :
    val_main_v3 (F := Ideal) ei (ix1 e) = ei (ix2 (1 : Fin 2) e) := by
  rw [val_main_v3_apply, val_main_v2_apply]
  congr 1
  funext a
  match a with
  | ⟨0, _⟩ => rfl
  | ⟨1, _⟩ => exact Fin.ext (Nat.mod_eq_of_lt e.isLt)

/-- The node numbering read signed at a node is the node's number. -/
theorem v4_toInt (l : Fin 100000) : (val_main_v4 (F := Ideal) (ix1 l)).toInt = (l.val : ℤ) := by
  rw [val_main_v4_apply]
  exact StableHlo.Predicate.toInt_ofNat_small l.val (by have := l.isLt; omega)

/-- The source index array (edge sources, then the node numbering) read signed at message `p`. -/
theorem srcIdx_toInt (ei : IVec S2x1600000 32) (src : Fin 1600000 → Fin 100000)
    (hsrc : ∀ e, (ei (ix2 (0 : Fin 2) e)).toInt = ((src e).val : ℤ)) (p : Fin 1700000) :
    (val_main_v5 (F := Ideal) ei (ix1 p)).toInt = ((msgNode src p).val : ℤ) := by
  unfold msgNode val_main_v5
  by_cases h : p.val < 1600000
  · rw [dif_pos h, concat_lt _ _ _ p h, v1_apply, hsrc]
  · rw [dif_neg h, concat_ge _ _ _ p (by omega)]
    exact v4_toInt _

/-- The destination index array read signed at message `p`. -/
theorem dstIdx_toInt (ei : IVec S2x1600000 32) (dst : Fin 1600000 → Fin 100000)
    (hdst : ∀ e, (ei (ix2 (1 : Fin 2) e)).toInt = ((dst e).val : ℤ)) (p : Fin 1700000) :
    (val_main_v6 (F := Ideal) ei (ix1 p)).toInt = ((msgNode dst p).val : ℤ) := by
  unfold msgNode val_main_v6
  by_cases h : p.val < 1600000
  · rw [dif_pos h, concat_lt _ _ _ p h, v3_apply, hdst]
  · rw [dif_neg h, concat_ge _ _ _ p (by omega)]
    exact v4_toInt _

/-- The coercion of a finite sum of reals is the sum of the coercions. -/
theorem coe_sum {ι : Type} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- A sum over the messages of a function of one end splits into the sum over the edges and the sum over the
    nodes (the loops). -/
theorem sum_msgNode (nd : Fin 1600000 → Fin 100000) (f : Fin 100000 → ℝ) :
    ∑ p : Fin 1700000, f (msgNode nd p) = (∑ e : Fin 1600000, f (nd e)) + ∑ l : Fin 100000, f l := by
  have e1 : ∀ e : Fin 1600000, msgNode nd (Fin.castAdd 100000 e) = nd e := by
    intro e
    unfold msgNode
    rw [dif_pos (show (Fin.castAdd 100000 e).val < 1600000 from e.isLt)]
    rfl
  have e2 : ∀ l : Fin 100000, msgNode nd (Fin.natAdd 1600000 l) = l := by
    intro l
    unfold msgNode
    rw [dif_neg (show ¬ (Fin.natAdd 1600000 l).val < 1600000 from by
      show ¬ (1600000 + l.val < 1600000); omega)]
    exact Fin.ext (by show 1600000 + l.val - 1600000 = l.val; omega)
  have h := Fin.sum_univ_add (a := 1600000) (b := 100000) (fun p => f (msgNode nd p))
  refine h.trans ?_
  simp only [e1, e2]

/-- The number of messages that end at `v`: the edges that end there, and its loop. -/
theorem count_msgNode (nd : Fin 1600000 → Fin 100000) (v : Fin 100000) :
    ∑ p : Fin 1700000, (if msgNode nd p = v then (1 : ℝ) else 0) = ((GcnSum.degree nd v : ℕ) : ℝ) := by
  refine (sum_msgNode nd (fun u => if u = v then (1 : ℝ) else 0)).trans ?_
  rw [Finset.sum_boole, Finset.sum_ite_eq' Finset.univ v (fun _ => (1 : ℝ)), if_pos (Finset.mem_univ v)]
  unfold GcnSum.degree
  rw [Nat.cast_add, Nat.cast_one]

/-- The zeros the degree is accumulated into. -/
theorem v8_apply (i : S100000.Idx) : val_main_v8 (F := Ideal) i = 0 := by
  rw [val_main_v8_apply, val_main_cst_0_apply, Ideal.ofBits_def, GcnSum.Consts.ofBits_zero]

/-- The ones that are accumulated. -/
theorem v7_apply (i : S1700000.Idx) : val_main_v7 (F := Ideal) i = ((1 : ℝ) : EReal) := by
  rw [val_main_v7_apply, val_main_cst_apply, Ideal.ofBits_def, GcnSum.Consts.ofBits_one]

/-- The zeros the degree is compared with. -/
theorem v11_apply (i : S100000.Idx) : val_main_v11 (F := Ideal) i = 0 := by
  rw [val_main_v11_apply, val_main_cst_1_apply, Ideal.ofBits_def, GcnSum.Consts.ofBits_zero]

/-- The exponent. -/
theorem v13_apply (i : S100000.Idx) : val_main_v13 (F := Ideal) i = ((-(1 / 2) : ℝ) : EReal) := by
  rw [val_main_v13_apply, val_main_cst_2_apply, Ideal.ofBits_def, GcnSum.Consts.ofBits_neg_half]

/-- The value the comparison's other branch holds. -/
theorem call0_v1_apply (i : S100000.Idx) : val_main_call0_v1 (F := Ideal) i = 0 := by
  rw [val_main_call0_v1_apply, val_main_call0_v0_apply, val_main_cst_3_apply, Ideal.ofBits_def,
    GcnSum.Consts.ofBits_zero]

/-- The destinations as a column, at row `p`. -/
theorem v9_apply (ei : IVec S2x1600000 32) (p : Fin 1700000) :
    val_main_v9 (F := Ideal) ei (StableHlo.Predicate.ixP p) = val_main_v6 (F := Ideal) ei (ix1 p) := by
  rw [val_main_v9_apply]
  congr 1
  funext a
  match a with
  | ⟨0, _⟩ => rfl

/-- The degree at node `v`: the number of messages that end there, a real. -/
theorem deg_apply (ei : IVec S2x1600000 32) (dst : Fin 1600000 → Fin 100000)
    (hdst : ∀ e, (ei (ix2 (1 : Fin 2) e)).toInt = ((dst e).val : ℤ)) (v : Fin 100000) :
    val_main_v10 (F := Ideal) ei (ix1 v) = (((GcnSum.degree dst v : ℕ) : ℝ) : EReal) := by
  have h := GcnSum.Take.scatterAdd_rows (N := 100000) (n := 1700000) (w := 32)
    scatter_S100000_S1700000x1_S1700000_n_0_0_1 rfl rfl rfl rfl
    (val_main_v8 (F := Ideal)) (val_main_v9 (F := Ideal) ei) (val_main_v7 (F := Ideal)) v
  have hterm : ∀ p : Fin 1700000,
      (if (val_main_v9 (F := Ideal) ei (StableHlo.Predicate.ixP p)).toInt = (v.val : ℤ)
        then val_main_v7 (F := Ideal) (Shape.Idx.ofFin p) else 0)
      = (((if msgNode dst p = v then (1 : ℝ) else 0 : ℝ)) : EReal) := by
    intro p
    rw [v9_apply, dstIdx_toInt ei dst hdst p, v7_apply]
    by_cases hc : msgNode dst p = v
    · rw [if_pos hc, if_pos (by rw [hc])]
    · rw [if_neg hc, if_neg (fun hh => hc (Fin.ext (by exact_mod_cast hh)))]
      rfl
  unfold val_main_v10
  rw [ix1_eq_ofFin]
  refine h.trans ?_
  rw [Finset.sum_congr rfl (fun p _ => hterm p), ← coe_sum, count_msgNode, v8_apply, zero_add]

/-- A positive real is above zero in the comparison's sense. -/
theorem cmp_ogt_pos (x : ℝ) (hx : 0 < x) : Ideal.cmp .ogt ((x : ℝ) : EReal) (0 : EReal) = 1#1 := by
  show BitVec.ofBool (decide ((0 : EReal) < ((x : ℝ) : EReal))) = 1#1
  rw [decide_eq_true (EReal.coe_pos.mpr hx)]
  rfl

/-- The normaliser array at node `v` is `invSqrtDeg`. -/
theorem dinv_apply (ei : IVec S2x1600000 32) (dst : Fin 1600000 → Fin 100000)
    (hdst : ∀ e, (ei (ix2 (1 : Fin 2) e)).toInt = ((dst e).val : ℤ)) (v : Fin 100000) :
    val_main_v15 (F := Ideal) ei (ix1 v) = ((GcnSum.invSqrtDeg dst v : ℝ) : EReal) := by
  have hpos : (0 : ℝ) < ((GcnSum.degree dst v : ℕ) : ℝ) := by
    unfold GcnSum.degree
    exact_mod_cast Nat.succ_pos _
  rw [val_main_v15_apply, val_main_v12_apply, val_main_v14_apply, deg_apply ei dst hdst v, v11_apply, v13_apply,
    Ideal.cmpf_def, cmp_ogt_pos _ hpos, select_one]
  rfl

/-- A word that reads signed as a node's number is not negative: the wrap-around of negative indices keeps it. -/
theorem wrap_apply (w a : BitVec 32) (n : Fin 100000) (hw : w.toInt = (n.val : ℤ)) :
    Scalar.select (IntOp.cmpi .slt w 0#32) a w = w := by
  have h0 : (0#32 : BitVec 32).toInt = 0 := by decide
  have hs : w.slt 0#32 = false := by
    simp only [BitVec.slt, hw, h0, decide_eq_false_iff_not, not_lt]
    omega
  have hc : IntOp.cmpi .slt w 0#32 = 0#1 := by
    show BitVec.ofBool (w.slt 0#32) = 0#1
    rw [hs]
    rfl
  rw [hc, select_zero]

/-- The wrapped sources are the sources. -/
theorem v20_apply (ei : IVec S2x1600000 32) (src : Fin 1600000 → Fin 100000)
    (hsrc : ∀ e, (ei (ix2 (0 : Fin 2) e)).toInt = ((src e).val : ℤ)) (p : Fin 1700000) :
    val_main_v20 (F := Ideal) ei (ix1 p) = val_main_v5 (F := Ideal) ei (ix1 p) := by
  rw [val_main_v20_apply, val_main_v17_apply, val_main_v16_apply, val_main_c_apply]
  exact wrap_apply _ _ (msgNode src p) (srcIdx_toInt ei src hsrc p)

/-- The wrapped destinations are the destinations. -/
theorem v27_apply (ei : IVec S2x1600000 32) (dst : Fin 1600000 → Fin 100000)
    (hdst : ∀ e, (ei (ix2 (1 : Fin 2) e)).toInt = ((dst e).val : ℤ)) (p : Fin 1700000) :
    val_main_v27 (F := Ideal) ei (ix1 p) = val_main_v6 (F := Ideal) ei (ix1 p) := by
  rw [val_main_v27_apply, val_main_v24_apply, val_main_v23_apply, val_main_c_5_apply]
  exact wrap_apply _ _ (msgNode dst p) (dstIdx_toInt ei dst hdst p)

/-- The wrapped sources as a column, at row `p`. -/
theorem v21_apply (ei : IVec S2x1600000 32) (p : Fin 1700000) :
    val_main_v21 (F := Ideal) ei (StableHlo.Predicate.ixP p) = val_main_v20 (F := Ideal) ei (ix1 p) := by
  rw [val_main_v21_apply]
  congr 1
  funext a
  match a with
  | ⟨0, _⟩ => rfl

/-- The wrapped destinations as a column, at row `p`. -/
theorem v28_apply (ei : IVec S2x1600000 32) (p : Fin 1700000) :
    val_main_v28 (F := Ideal) ei (StableHlo.Predicate.ixP p) = val_main_v27 (F := Ideal) ei (ix1 p) := by
  rw [val_main_v28_apply]
  congr 1
  funext a
  match a with
  | ⟨0, _⟩ => rfl

/-- The normaliser array taken at a column of indices whose row `p` reads as node `n`'s number: the clamp keeps
    an in-range node, so the result at `p` is `n`'s normaliser. -/
theorem take_dinv (ei : IVec S2x1600000 32) (dst : Fin 1600000 → Fin 100000)
    (hdst : ∀ e, (ei (ix2 (1 : Fin 2) e)).toInt = ((dst e).val : ℤ)) (idx : IVec S1700000x1 32) (p : Fin 1700000)
    (n : Fin 100000) (hidx : (idx (StableHlo.Predicate.ixP p)).toInt = (n.val : ℤ)) :
    Host.gather gather_S100000_S1700000x1_S1700000_n_0_n_n_0_1_1 (val_main_v15 (F := Ideal) ei) idx (ix1 p)
      = ((GcnSum.invSqrtDeg dst n : ℝ) : EReal) := by
  have h := StableHlo.Predicate.gather_take (N := 100000) (n := 1700000) (w := 32)
    gather_S100000_S1700000x1_S1700000_n_0_n_n_0_1_1 rfl rfl rfl rfl (val_main_v15 (F := Ideal) ei) idx p (by decide)
  rw [ix1_eq_ofFin]
  refine h.trans ?_
  refine Eq.trans (congrArg (val_main_v15 (F := Ideal) ei) ?_) (dinv_apply ei dst hdst n)
  rw [ix1_eq_ofFin]
  refine congrArg Shape.Idx.ofFin (Fin.ext ?_)
  show min (idx (StableHlo.Predicate.ixP p)).toInt.toNat (100000 - 1) = n.val
  rw [hidx, Int.toNat_natCast]
  have := n.isLt
  omega

/-- The per-message normalisation: the product of the two ends' normalisers. -/
theorem norm_apply (ei : IVec S2x1600000 32) (src dst : Fin 1600000 → Fin 100000)
    (hsrc : ∀ e, (ei (ix2 (0 : Fin 2) e)).toInt = ((src e).val : ℤ))
    (hdst : ∀ e, (ei (ix2 (1 : Fin 2) e)).toInt = ((dst e).val : ℤ)) (p : Fin 1700000) :
    val_main_v30 (F := Ideal) ei (ix1 p)
      = ((GcnSum.invSqrtDeg dst (msgNode src p) * GcnSum.invSqrtDeg dst (msgNode dst p) : ℝ) : EReal) := by
  have h22 : val_main_v22 (F := Ideal) ei (ix1 p) = ((GcnSum.invSqrtDeg dst (msgNode src p) : ℝ) : EReal) := by
    unfold val_main_v22
    exact take_dinv ei dst hdst _ p (msgNode src p)
      (by rw [v21_apply, v20_apply ei src hsrc p]; exact srcIdx_toInt ei src hsrc p)
  have h29 : val_main_v29 (F := Ideal) ei (ix1 p) = ((GcnSum.invSqrtDeg dst (msgNode dst p) : ℝ) : EReal) := by
    unfold val_main_v29
    exact take_dinv ei dst hdst _ p (msgNode dst p)
      (by rw [v28_apply, v27_apply ei dst hdst p]; exact dstIdx_toInt ei dst hdst p)
  rw [val_main_v30_apply, h22, h29, Ideal.mulf_def, EReal.coe_mul]

end Cert.ReferenceIdeal.RNorm

end
-- ==== Proof.LibTakeRows.lean ====
/-
  Rows of a matrix taken and scattered by a column of positions (jax's `h[idx]` and `segment_sum` over a rank-2
  operand): the start indices are an [n × 1] column, axis 0 of the operand is collapsed (inserted) and
  start-indexed, axis 1 is the window. The gather reads row `p` of the result from the operand's row at position
  `p`'s index, read signed and clamped into the operand; the scatter-add lands row `p` of the updates on the
  operand's row its index names, column for column, and drops it when the index is outside.
-/
import Idealize.ShloMosaic.Lib.StableHlo.Predicate
import Idealize.ShloMosaic.PureOps.Ideal

noncomputable section

namespace GcnSum.Take

open Idealize.ShloMosaic Idealize.ShloMosaic.StableHlo.Predicate

/-! ## Bookkeeping shared by the two readings -/

/-- An entry of a one-element list is that element, whatever the position. -/
theorem getElem_singleton_eq {α : Type} (l : List α) (k : Nat) (h : k < l.length) (c : α) (hl : l = [c]) : l[k] = c := by
  subst hl
  have hk : k = 0 := by simpa using h
  subst hk
  rfl

/-! ## The scatter-add of rows -/

/-- An [n × m] index set is rows × columns … -/
def rowsEquiv {n m : Nat} : (⟨2, ![n, m]⟩ : Shape).Idx ≃ Fin n × Fin m where
  toFun j := (j 0, j 1)
  invFun pq := ij pq.1 pq.2
  left_inv j := ij_eta j
  right_inv _ := rfl

/-- … so a sum over it is the sum over the rows of the sums along each row. -/
theorem sum_rows {A : Type} [AddCommMonoid A] {n m : Nat} (f : (⟨2, ![n, m]⟩ : Shape).Idx → A) :
    ∑ j, f j = ∑ p : Fin n, ∑ q : Fin m, f (ij p q) := by
  rw [← Fintype.sum_prod_type' (fun p q => f (ij p q))]
  exact Fintype.sum_equiv rowsEquiv _ _ (fun j => congrArg f (ij_eta j).symm)

/-- Where the update at (p, q') lands: on the operand's row the index word of position p names (read signed), in
    column q' — so it lands on entry (v, q) exactly when that word is v and q' is q; a word outside the operand's rows
    lands nowhere. -/
theorem resultIdx?_rows2 {N M n w : Nat} (d : ScatterDims ⟨2, ![N, M]⟩ ⟨2, ![n, 1]⟩ ⟨2, ![n, M]⟩)
    (huw : d.updateWindowDims = [1]) (hiw : d.insertedWindowDims = [0]) (hsd : d.scatterDimsToOperandDims = [0])
    (hivd : d.indexVectorDim = 1) (idx : IVec ⟨2, ![n, 1]⟩ w) (p : Fin n) (q' : Fin M) (v : Fin N) (q : Fin M) :
    d.resultIdx? (ij p q') idx = some (ij v q) ↔ (idx (ixP p)).toInt = (v.val : ℤ) ∧ q' = q := by
  have hus : d.uScatter = [0] := by
    show Shape.kept _ d.updateWindowDims = _
    rw [huw]; rfl
  have hlen : d.scatterDimsToOperandDims.length = 1 := by rw [hsd]; rfl
  -- the index word that update position (p, q') reads: row p of the column
  have hsi : ∀ c : Fin d.scatterDimsToOperandDims.length, d.siIdx (ij p q') c = ixP p := by
    intro c
    funext b
    match b with
    | ⟨0, _⟩ =>
      unfold ScatterDims.siIdx
      rw [dif_neg (by rw [hivd]; simp)]
      unfold ScatterDims.siCoord
      apply Fin.ext
      simp only [Fin.val_cast]
      rw [getElem_singleton_eq d.uScatter _ _ 0 hus]
      rfl
    | ⟨1, _⟩ =>
      unfold ScatterDims.siIdx
      rw [dif_pos (by rw [hivd])]
      apply Fin.ext
      have hc := c.isLt
      show c.val = 0
      omega
  -- axis 0: inserted (no window coordinate), start = the index word
  have hs0 : d.start (ij p q') idx 0 = (idx (ixP p)).toInt := by
    have hm : (0 : Fin 2) ∈ d.scatterDimsToOperandDims := by rw [hsd]; exact List.mem_singleton.mpr rfl
    unfold ScatterDims.start
    rw [dif_pos hm, hsi]
  have hw0 : d.window (ij p q') 0 = 0 := by
    have hk : (0 : Fin 2) ∉ d.sKept := by simp [ScatterDims.sKept, Shape.kept, hiw]
    unfold ScatterDims.window
    rw [dif_neg hk]
  -- axis 1: the one window axis, start 0
  have hs1 : d.start (ij p q') idx 1 = 0 := by
    have hm : (1 : Fin 2) ∉ d.scatterDimsToOperandDims := by rw [hsd]; simp
    unfold ScatterDims.start
    rw [dif_neg hm]
  have hw1 : d.window (ij p q') 1 = q'.val := by
    have hk : (1 : Fin 2) ∈ d.sKept := by simp [ScatterDims.sKept, Shape.kept, hiw]
    unfold ScatterDims.window
    rw [dif_pos hk, getElem_singleton_eq d.updateWindowDims _ _ 1 huw]
    rfl
  have hv := v.isLt
  have hq' := q'.isLt
  unfold ScatterDims.resultIdx?
  split
  · rename_i h
    have g0 : 0 ≤ (idx (ixP p)).toInt + ((0 : ℕ) : ℤ) ∧ (idx (ixP p)).toInt + ((0 : ℕ) : ℤ) < (N : ℤ) := by
      have := h 0
      rw [hs0, hw0] at this
      exact this
    constructor
    · intro he
      have he' := Option.some.inj he
      have e0 : (d.start (ij p q') idx 0 + d.window (ij p q') 0).toNat = v.val := congrArg Fin.val (congrFun he' 0)
      have e1 : (d.start (ij p q') idx 1 + d.window (ij p q') 1).toNat = q.val := congrArg Fin.val (congrFun he' 1)
      rw [hs0, hw0] at e0
      rw [hs1, hw1] at e1
      exact ⟨by omega, Fin.ext (by omega)⟩
    · rintro ⟨hI, hq⟩
      have hqv := congrArg Fin.val hq
      congr 1
      funext a
      match a with
      | ⟨0, _⟩ =>
        apply Fin.ext
        show (d.start (ij p q') idx 0 + d.window (ij p q') 0).toNat = v.val
        rw [hs0, hw0]; omega
      | ⟨1, _⟩ =>
        apply Fin.ext
        show (d.start (ij p q') idx 1 + d.window (ij p q') 1).toNat = q.val
        rw [hs1, hw1]; omega
  · rename_i h
    constructor
    · intro he; exact absurd he (by simp)
    · rintro ⟨hI, hq⟩
      exfalso
      apply h
      intro a
      match a with
      | ⟨0, _⟩ =>
        show 0 ≤ d.start (ij p q') idx 0 + (d.window (ij p q') 0 : ℤ)
          ∧ d.start (ij p q') idx 0 + (d.window (ij p q') 0 : ℤ) < (N : ℤ)
        rw [hs0, hw0]; omega
      | ⟨1, _⟩ =>
        show 0 ≤ d.start (ij p q') idx 1 + (d.window (ij p q') 1 : ℤ)
          ∧ d.start (ij p q') idx 1 + (d.window (ij p q') 1 : ℤ) < (M : ℤ)
        rw [hs1, hw1]; omega

/-- The float scatter-add of rows, at the exact instance, read at entry `(v, q)`. -/
theorem scatterAdd_rows2 {N M n w : Nat} (d : ScatterDims ⟨2, ![N, M]⟩ ⟨2, ![n, 1]⟩ ⟨2, ![n, M]⟩)
    (huw : d.updateWindowDims = [1]) (hiw : d.insertedWindowDims = [0]) (hsd : d.scatterDimsToOperandDims = [0])
    (hivd : d.indexVectorDim = 1)
    (x : FVec Ideal ⟨2, ![N, M]⟩ .f32) (idx : IVec ⟨2, ![n, 1]⟩ w) (upd : FVec Ideal ⟨2, ![n, M]⟩ .f32)
    (v : Fin N) (q : Fin M) :
    Host.scatterAdd (F := Ideal) d x idx upd (ij v q)
      = x (ij v q) + ∑ p : Fin n, if (idx (ixP p)).toInt = (v.val : ℤ) then upd (ij p q) else 0 := by
  show Ideal.hostScatterAdd d x idx upd (ij v q) = _
  unfold Ideal.hostScatterAdd
  refine congrArg (fun t => x (ij v q) + t) ?_
  rw [Finset.sum_filter, sum_rows]
  refine Finset.sum_congr rfl fun p _ => ?_
  simp only [resultIdx?_rows2 d huw hiw hsd hivd]
  by_cases hI : (idx (ixP p)).toInt = (v.val : ℤ)
  · simp only [hI, true_and, if_true]
    rw [Finset.sum_ite_eq' Finset.univ q (fun q' => upd (ij p q'))]
    simp
  · simp only [hI, false_and, if_false, Finset.sum_const_zero]

/-! ## The row take -/

/-- The row take: result row `p` is the operand's row at position `p`'s index, read signed and clamped. -/
theorem gather_rows2 {α : Type} {N M n w : Nat} (d : GatherDims ⟨2, ![N, M]⟩ ⟨2, ![n, 1]⟩ ⟨2, ![n, M]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, M])
    (x : (⟨2, ![N, M]⟩ : Shape).Idx → α) (idx : IVec ⟨2, ![n, 1]⟩ w) (p : Fin n) (q : Fin M) (hN : 0 < N) :
    Host.gather d x idx (ij p q) = x (ij ⟨min (idx (ixP p)).toInt.toNat (N - 1), by omega⟩ q) := by
  have hb : ∀ a : Fin 2, a ∉ d.operandBatchingDims := fun a => by rw [hob]; exact List.not_mem_nil
  have hbd : d.batchDims = [0] := by
    show Shape.kept _ d.offsetDims = _
    rw [hoff]; rfl
  have hlen : d.startIndexMap.length = 1 := by rw [hsim]; rfl
  -- the start-index word that result position (p, q) reads: row p of the column
  have hsi : ∀ c : Fin d.startIndexMap.length, d.siIdx (ij p q) c = ixP p := by
    intro c
    funext b
    match b with
    | ⟨0, _⟩ =>
      unfold GatherDims.siIdx
      rw [dif_neg (by rw [hivd]; simp)]
      unfold GatherDims.siCoord
      apply Fin.ext
      simp only [Fin.val_cast]
      rw [getElem_singleton_eq d.batchDims _ _ 0 hbd]
      rfl
    | ⟨1, _⟩ =>
      unfold GatherDims.siIdx
      rw [dif_pos (by rw [hivd])]
      apply Fin.ext
      have hc := c.isLt
      show c.val = 0
      omega
  -- axis 0: collapsed and start-indexed
  have h0 : (d.operandIdx (ij p q) idx 0).val = min (idx (ixP p)).toInt.toNat (N - 1) := by
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := by rw [hss]; rfl
    simp only [GatherDims.operandIdx, GatherDims.batchCoord_eq_zero _ _ _ (hb _), GatherDims.offCoord_eq_zero _ _ _ hk,
      Nat.add_zero, GatherDims.start, dif_pos hm, hsi]
    show min (idx (ixP p)).toInt.toNat (N - d.sliceSizes 0) = min (idx (ixP p)).toInt.toNat (N - 1)
    rw [hsl]
  -- axis 1: the one offset axis, not start-indexed
  have h1 : (d.operandIdx (ij p q) idx 1).val = q.val := by
    have hk : (1 : Fin 2) ∈ d.sKept := by rw [GatherDims.mem_sKept, hcoll, hob]; simp
    have hm : (1 : Fin 2) ∉ d.startIndexMap := by rw [hsim]; simp
    simp only [GatherDims.operandIdx, GatherDims.batchCoord_eq_zero _ _ _ (hb _), Nat.add_zero, GatherDims.start, dif_neg hm,
      Nat.zero_add]
    unfold GatherDims.offCoord
    rw [dif_pos hk, getElem_singleton_eq d.offsetDims _ _ 1 hoff]
    rfl
  unfold Host.gather
  congr 1
  funext a
  match a with
  | ⟨0, _⟩ => exact Fin.ext h0
  | ⟨1, _⟩ => exact Fin.ext h1

end GcnSum.Take

end
-- ==== Proof.RefValue.lean ====
/-
  The reference's term at an index: entry `(0, f)` of its result is the real number `messageForm` of the decoded
  arguments. The 1700000 messages are the 1600000 edges followed by the 100000 self-loops (the concatenation with the
  node numbering); at in-range nodes jnp's wrap-around of negative indices and the gather's clamp change nothing; the
  degree is the exact sum of a one per message by destination; each scatter-add is the sum over the messages whose
  destination is the entry's node; the final reduction sums over the nodes.
-/
import proofs.«400708_j58239756534442_3_alg».proof.Proof.RefNorm
import proofs.«400708_j58239756534442_3_alg».proof.Proof.Spec
import proofs.«400708_j58239756534442_3_alg».proof.Proof.Consts
import proofs.«400708_j58239756534442_3_alg».proof.Proof.LibScatterRows
import proofs.«400708_j58239756534442_3_alg».proof.Proof.LibTakeRows
import Idealize.ShloMosaic.Lib.StableHlo.Predicate
import Idealize.ShloMosaic.Lib.ValueLayout

noncomputable section

namespace Cert.ReferenceIdeal.RValue

open Idealize.ShloMosaic Idealize.ShloMosaic.ValueIdx Cert.ReferenceIdeal Cert.ReferenceIdeal.Read

/-- The coercion of a finite sum of reals is the sum of the coercions. -/
theorem coe_sum {ι : Type} (s : Finset ι) (g : ι → ℝ) :
    ((∑ i ∈ s, g i : ℝ) : EReal) = ∑ i ∈ s, ((g i : ℝ) : EReal) := by
  classical
  induction s using Finset.induction_on with
  | empty => simp
  | insert a s ha ih => rw [Finset.sum_insert ha, Finset.sum_insert ha, EReal.coe_add, ih]

/-- An edge's message has the edge's ends. -/
theorem msgNode_edge (nd : Fin 1600000 → Fin 100000) (e : Fin 1600000) :
    RNorm.msgNode nd (Fin.castAdd 100000 e) = nd e := by
  unfold RNorm.msgNode
  rw [dif_pos (show (Fin.castAdd 100000 e).val < 1600000 from e.isLt)]
  rfl

/-- A self-loop's message has the loop's node at both ends. -/
theorem msgNode_loop (nd : Fin 1600000 → Fin 100000) (l : Fin 100000) :
    RNorm.msgNode nd (Fin.natAdd 1600000 l) = l := by
  unfold RNorm.msgNode
  rw [dif_neg (show ¬ (Fin.natAdd 1600000 l).val < 1600000 by simp)]
  apply Fin.ext
  simp

/-- A sum over the messages is the sum over the edges plus the sum over the self-loops. -/
theorem sum_msgs (src dst : Fin 1600000 → Fin 100000) (G : Fin 100000 → Fin 100000 → ℝ) :
    (∑ p : Fin 1700000, G (RNorm.msgNode src p) (RNorm.msgNode dst p))
      = (∑ e : Fin 1600000, G (src e) (dst e)) + ∑ l : Fin 100000, G l l := by
  have h := Fin.sum_univ_add (M := ℝ) (a := 1600000) (b := 100000)
    (fun p : Fin (1600000 + 100000) => G (RNorm.msgNode src p) (RNorm.msgNode dst p))
  refine h.trans (congrArg₂ (· + ·) (Finset.sum_congr rfl fun e _ => ?_) (Finset.sum_congr rfl fun l _ => ?_))
  · show G (RNorm.msgNode src (Fin.castAdd 100000 e)) (RNorm.msgNode dst (Fin.castAdd 100000 e)) = _
    rw [msgNode_edge, msgNode_edge]
  · show G (RNorm.msgNode src (Fin.natAdd 1600000 l)) (RNorm.msgNode dst (Fin.natAdd 1600000 l)) = _
    rw [msgNode_loop, msgNode_loop]

open Idealize.ShloMosaic.StableHlo.Predicate

/-- The bias row, broadcast over the nodes, at `(v, f)`. -/
theorem v47_at (b : FVec Ideal S128 .f32) (v : Fin 100000) (f : Fin 128) :
    val_main_v47 (F := Ideal) b (ix2 v f) = b (ix1 f) := by
  rw [val_main_v47_apply, val_main_v46_apply]
  exact congrArg b (funext fun a => by match a with | ⟨0, _⟩ => rfl)

/-- The linear map applied to node `u`'s feature row, at feature `f`. -/
theorem v32_at (x : FVec Ideal S100000x128 .f32) (W : FVec Ideal S128x128 .f32)
    (xr : Fin 100000 → Fin 128 → ℝ) (wr : Fin 128 → Fin 128 → ℝ)
    (hx : ∀ u k, x (ix2 u k) = ((xr u k : ℝ) : EReal)) (hw : ∀ g k, W (ix2 g k) = ((wr g k : ℝ) : EReal))
    (u : Fin 100000) (f : Fin 128) :
    val_main_v32 (F := Ideal) x W (ix2 u f) = ((∑ k : Fin 128, xr u k * wr f k : ℝ) : EReal) := by
  rw [val_main_v32_apply, coe_sum]
  refine Finset.sum_congr rfl fun k _ => ?_
  rw [val_main_v31_apply,
    show lidx_main_v32 (ix2 u f) k = ix2 u k from
      funext fun a => by match a with | ⟨0, _⟩ => rfl | ⟨1, _⟩ => rfl,
    show idx_main_v31 (ridx_main_v32 (ix2 u f) k) = ix2 f k from
      funext fun a => by match a with | ⟨0, _⟩ => rfl | ⟨1, _⟩ => rfl,
    hx, hw, EReal.coe_mul]

/-- The wrap-around of negative indices leaves a node number alone. -/
theorem v37_toInt (ei : IVec S2x1600000 32) (src : Fin 1600000 → Fin 100000)
    (hsrc : ∀ e, (ei (ix2 (0 : Fin 2) e)).toInt = ((src e).val : ℤ)) (p : Fin 1700000) :
    (val_main_v37 (F := Ideal) ei (ix1 p)).toInt = ((RNorm.msgNode src p).val : ℤ) := by
  have h5 := RNorm.srcIdx_toInt ei src hsrc p
  rw [val_main_v37_apply, val_main_v34_apply, val_main_v33_apply, val_main_c_7_apply]
  have hc : IntOp.cmpi .slt (val_main_v5 (F := Ideal) ei (ix1 p)) 0#32 = 0#1 := by
    have hlt : (val_main_v5 (F := Ideal) ei (ix1 p)).slt 0#32 = false := by
      simp [BitVec.slt, h5]
    show BitVec.ofBool ((val_main_v5 (F := Ideal) ei (ix1 p)).slt 0#32) = 0#1
    rw [hlt]; rfl
  rw [hc, select_zero, h5]

/-- The row take reads the transformed row of the message's source node. -/
theorem v39_at (x : FVec Ideal S100000x128 .f32) (W : FVec Ideal S128x128 .f32) (ei : IVec S2x1600000 32)
    (src : Fin 1600000 → Fin 100000)
    (hsrc : ∀ e, (ei (ix2 (0 : Fin 2) e)).toInt = ((src e).val : ℤ)) (p : Fin 1700000) (f : Fin 128) :
    val_main_v39 (F := Ideal) x W ei (ix2 p f)
      = val_main_v32 (F := Ideal) x W (ix2 (RNorm.msgNode src p) f) := by
  have hg := GcnSum.Take.gather_rows2 gather_S100000x128_S1700000x1_S1700000x128_1_0_n_n_0_1_1128
    rfl rfl rfl rfl rfl rfl rfl (val_main_v32 (F := Ideal) x W) (val_main_v38 (F := Ideal) ei) p f (by omega)
  have hrow : (⟨min (val_main_v38 (F := Ideal) ei (ixP p)).toInt.toNat (100000 - 1), by omega⟩ : Fin 100000)
      = RNorm.msgNode src p := by
    apply Fin.ext
    show min (val_main_v38 (F := Ideal) ei (ixP p)).toInt.toNat (100000 - 1) = (RNorm.msgNode src p).val
    rw [val_main_v38_apply,
      show idx_main_v38 (ixP p) = ix1 p from funext fun a => by match a with | ⟨0, _⟩ => rfl,
      v37_toInt ei src hsrc p, Int.toNat_natCast]
    have := (RNorm.msgNode src p).isLt
    omega
  unfold val_main_v39
  exact hg.trans (congrArg (fun r => val_main_v32 (F := Ideal) x W (ij r f)) hrow)

/-- A message's contribution at feature `f`: the transformed source row times the two ends' normalisers. -/
theorem v42_at (x : FVec Ideal S100000x128 .f32) (W : FVec Ideal S128x128 .f32) (ei : IVec S2x1600000 32)
    (xr : Fin 100000 → Fin 128 → ℝ) (wr : Fin 128 → Fin 128 → ℝ) (src dst : Fin 1600000 → Fin 100000)
    (hx : ∀ u k, x (ix2 u k) = ((xr u k : ℝ) : EReal)) (hw : ∀ g k, W (ix2 g k) = ((wr g k : ℝ) : EReal))
    (hsrc : ∀ e, (ei (ix2 (0 : Fin 2) e)).toInt = ((src e).val : ℤ))
    (hdst : ∀ e, (ei (ix2 (1 : Fin 2) e)).toInt = ((dst e).val : ℤ)) (p : Fin 1700000) (f : Fin 128) :
    val_main_v42 (F := Ideal) x W ei (ix2 p f)
      = (((∑ k : Fin 128, xr (RNorm.msgNode src p) k * wr f k)
          * (GcnSum.invSqrtDeg dst (RNorm.msgNode src p) * GcnSum.invSqrtDeg dst (RNorm.msgNode dst p)) : ℝ) : EReal) := by
  rw [val_main_v42_apply, val_main_v41_apply, val_main_v40_apply,
    show idx_main_v40 (idx_main_v41 (ix2 p f)) = ix1 p from funext fun a => by match a with | ⟨0, _⟩ => rfl,
    v39_at x W ei src hsrc p f, v32_at x W xr wr hx hw, RNorm.norm_apply ei src dst hsrc hdst p,
    Ideal.mulf_def, ← EReal.coe_mul]

/-- The scatter-add by destination: entry `(v, f)` is the sum of the messages that end at `v`. -/
theorem v45_at (x : FVec Ideal S100000x128 .f32) (W : FVec Ideal S128x128 .f32) (ei : IVec S2x1600000 32)
    (xr : Fin 100000 → Fin 128 → ℝ) (wr : Fin 128 → Fin 128 → ℝ) (src dst : Fin 1600000 → Fin 100000)
    (hx : ∀ u k, x (ix2 u k) = ((xr u k : ℝ) : EReal)) (hw : ∀ g k, W (ix2 g k) = ((wr g k : ℝ) : EReal))
    (hsrc : ∀ e, (ei (ix2 (0 : Fin 2) e)).toInt = ((src e).val : ℤ))
    (hdst : ∀ e, (ei (ix2 (1 : Fin 2) e)).toInt = ((dst e).val : ℤ)) (v : Fin 100000) (f : Fin 128) :
    val_main_v45 (F := Ideal) x W ei (ix2 v f)
      = ((∑ p : Fin 1700000, if RNorm.msgNode dst p = v then
            (∑ k : Fin 128, xr (RNorm.msgNode src p) k * wr f k)
              * (GcnSum.invSqrtDeg dst (RNorm.msgNode src p) * GcnSum.invSqrtDeg dst (RNorm.msgNode dst p))
          else 0 : ℝ) : EReal) := by
  have hs := GcnSum.Take.scatterAdd_rows2 scatter_S100000x128_S1700000x1_S1700000x128_1_0_0_1 rfl rfl rfl rfl
    (val_main_v43 (F := Ideal)) (val_main_v44 (F := Ideal) ei) (val_main_v42 (F := Ideal) x W ei) v f
  unfold val_main_v45
  refine hs.trans ?_
  rw [val_main_v43_apply, val_main_cst_9_apply, Ideal.ofBits_def, GcnSum.Consts.ofBits_zero, zero_add, coe_sum]
  refine Finset.sum_congr rfl fun p _ => ?_
  rw [val_main_v44_apply,
    show idx_main_v44 (ixP p) = ix1 p from funext fun a => by match a with | ⟨0, _⟩ => rfl,
    RNorm.dstIdx_toInt ei dst hdst p]
  by_cases h : RNorm.msgNode dst p = v
  · rw [if_pos (by rw [h]), if_pos h]
    exact v42_at x W ei xr wr src dst hx hw hsrc hdst p f
  · rw [if_neg (fun h' => h (Fin.ext (by exact_mod_cast h'))), if_neg h, EReal.coe_zero]

/-- Entry `(0, f)` of the reference's result is `messageForm` of the arguments read as reals and nodes. -/
theorem ref_apply (x : FVec Ideal S100000x128 .f32) (W : FVec Ideal S128x128 .f32) (b : FVec Ideal S128 .f32)
    (ei : IVec S2x1600000 32)
    (xr : Fin 100000 → Fin 128 → ℝ) (wr : Fin 128 → Fin 128 → ℝ) (br : Fin 128 → ℝ) (src dst : Fin 1600000 → Fin 100000)
    (hx : ∀ u k, x (ix2 u k) = ((xr u k : ℝ) : EReal)) (hw : ∀ g k, W (ix2 g k) = ((wr g k : ℝ) : EReal))
    (hb : ∀ g, b (ix1 g) = ((br g : ℝ) : EReal))
    (hsrc : ∀ e, (ei (ix2 (0 : Fin 2) e)).toInt = ((src e).val : ℤ))
    (hdst : ∀ e, (ei (ix2 (1 : Fin 2) e)).toInt = ((dst e).val : ℤ)) (f : Fin 128) :
    val_main_v50 (F := Ideal) x W b ei (ix2 (0 : Fin 1) f)
      = ((GcnSum.messageForm src dst (GcnSum.invSqrtDeg dst) xr wr br f : ℝ) : EReal) := by
  rw [val_main_v50_apply,
    show idx_main_v50 (ix2 (0 : Fin 1) f) = ix1 f from funext fun a => by match a with | ⟨0, _⟩ => rfl,
    val_main_v49_apply, val_main_cst_10_apply, Ideal.ofBits_def, GcnSum.Consts.ofBits_zero, zero_add]
  unfold GcnSum.messageForm
  rw [coe_sum]
  refine Finset.sum_congr rfl fun v _ => ?_
  rw [show idx_main_v49 (ix1 f) v = ix2 v f from
      funext fun a => by match a with | ⟨0, _⟩ => rfl | ⟨1, _⟩ => rfl,
    val_main_v48_apply, v45_at x W ei xr wr src dst hx hw hsrc hdst v f, v47_at, hb, Ideal.addf_def,
    ← EReal.coe_add]
  refine congrArg (fun r : ℝ => (r : EReal)) (congrArg (· + br f) ?_)
  exact sum_msgs src dst (fun s d => if d = v then
    (∑ k : Fin 128, xr s k * wr f k) * (GcnSum.invSqrtDeg dst s * GcnSum.invSqrtDeg dst d) else 0)

end Cert.ReferenceIdeal.RValue

end
-- ==== Proof.PreFacts.lean ====
/-
  What the precondition says of the arguments: every entry of the three float arrays is a real number, and every
  entry of the edge list is a node, `0 ≤ · < 100000`, read as a signed word.
-/
import proofs.«400708_j58239756534442_3_alg».proof.Pre_finite_inputs
import proofs.«400708_j58239756534442_3_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal

noncomputable section

namespace GcnSum.Pre

open Idealize.ShloMosaic Cert.Pre_finite_inputs Cert.Pre_finite_inputs.Gen

/-- The scalar shape has one index. -/
instance : Subsingleton S_.Idx := ⟨fun a b => funext fun d => d.elim0⟩

/-- The f32 pattern `0x7F800000` denotes `+∞`. -/
theorem ofBits_inf : Ideal.ofBits .f32 0x7F800000#32 = ⊤ := by simp [Ideal.ofBits, Ideal.ieee]

/-- An extended real whose absolute value `max v (-v)` compares below `+∞` is a real number: `⊤` and `⊥` both
    have absolute value `⊤`. -/
theorem real_of_abs_lt_inf (v : EReal)
    (h : Ideal.cmp .olt (max v (-v)) (Ideal.ofBits .f32 0x7F800000#32) = 1#1) : ∃ r : ℝ, v = (r : EReal) := by
  rw [ofBits_inf] at h
  have hlt : max v (-v) < ⊤ := by
    by_contra hn
    simp [Ideal.cmp, hn] at h
  induction v using EReal.rec with
  | bot => simp at hlt
  | top => simp at hlt
  | coe r => exact ⟨r, rfl⟩

/-- The precondition, all ones, gives finiteness of `x`, `W`, `bias` and the range of the edge list. -/
theorem facts_of_pre (x : FVec Ideal S100000x128 .f32) (W : FVec Ideal S128x128 .f32) (b : FVec Ideal S128 .f32)
    (ei : IVec S2x1600000 32)
    (h : Cert.Pre_finite_inputs.fn (F := Ideal) x W b ei = fun _ => 1#1) :
    (∀ i, ∃ r : ℝ, x i = (r : EReal)) ∧ (∀ i, ∃ r : ℝ, W i = (r : EReal)) ∧ (∀ i, ∃ r : ℝ, b i = (r : EReal))
      ∧ (∀ i, 0 ≤ (ei i).toInt ∧ (ei i).toInt < 100000) := by
  -- the one element of the result, as the nested conjunction of the five `all`s
  have h0 := congrFun h ValueIdx.ix0
  dsimp only [Cert.Pre_finite_inputs.fn, Cert.Pre_finite_inputs.fn_part1, andi] at h0
  obtain ⟨h0, hlt⟩ := IntOp.andi_eq_one.1 h0
  obtain ⟨h0, hge⟩ := IntOp.andi_eq_one.1 h0
  obtain ⟨h0, hb⟩ := IntOp.andi_eq_one.1 h0
  obtain ⟨hx, hW⟩ := IntOp.andi_eq_one.1 h0
  refine ⟨fun i => ?_, fun i => ?_, fun i => ?_, fun i => ⟨?_, ?_⟩⟩
  · exact real_of_abs_lt_inf (x i) (Host.reduce_andi_all _ _ _ _ _ hx i)
  · exact real_of_abs_lt_inf (W i) (Host.reduce_andi_all _ _ _ _ _ hW i)
  · exact real_of_abs_lt_inf (b i) (Host.reduce_andi_all _ _ _ _ _ hb i)
  · -- the signed compare `ei i ≥ 0`
    have e : (0#32 : BitVec 32).toInt ≤ (ei i).toInt := IntOp.cmpi_sge.1 (Host.reduce_andi_all _ _ _ _ _ hge i)
    rwa [show (0#32 : BitVec 32).toInt = 0 from by decide] at e
  · -- the signed compare `ei i < 100000`
    have e : (ei i).toInt < (100000#32 : BitVec 32).toInt := IntOp.cmpi_slt.1 (Host.reduce_andi_all _ _ _ _ _ hlt i)
    rwa [show (100000#32 : BitVec 32).toInt = 100000 from by decide] at e

end GcnSum.Pre

end
-- ==== Proof.lean ====
/-
  The certificate of a graph-convolution row sum.

  Both programs compute, from node features `x` [100000, 128], a square weight `W`, a bias and 1600000 directed edges,
  the sum over ALL nodes of one graph-convolution layer with self-loops and symmetric normalisation
  `deg ^ (-1/2)` at both ends of every edge. The reference sends a message along every edge and every loop,
  scatter-adds the messages by destination, adds the bias per node and sums the nodes (`GcnSum.messageForm`). The
  kernel notices that the sum over all nodes forgets where a message arrives: it collects the edges by their SOURCE
  into one weight per node, takes ONE weighted sum of the rows of `x` (the launch, in four blocks of 25000 rows),
  and applies `Wᵀ` and `100000 * bias` afterwards (`GcnSum.weightedForm`). Over the reals the two are one number
  (`GcnSum.messageForm_eq_weightedForm`, a re-ordering of finite sums), given that every float entry is finite —
  so that products distribute over the sums — and that every edge's endpoints are nodes, `0 ≤ · < 100000` — outside
  that range the reference itself indexes out of range (its gathers clamp while its scatters drop) and the two
  programs part.
  The pieces: the kernel's run ends at `Term.kernelTerm` of the arguments (KernelRun, over the launch's value
  KernelRegion); its entry `(0, f)` is `weightedForm` (KernelValue, KernelWeights); the reference's run ends at its
  composed term, whose entry `(0, f)` is `messageForm` (RefValue, RefNorm); the precondition gives the finiteness and
  the range (PreFacts).
-/
import proofs.«400708_j58239756534442_3_alg».proof.Defs
import proofs.«400708_j58239756534442_3_alg».proof.Proof.Gen.Kernel.Frame
import proofs.«400708_j58239756534442_3_alg».proof.Proof.Gen.KernelIdeal.Frame
import proofs.«400708_j58239756534442_3_alg».proof.Proof.Gen.ReferenceIdeal
import proofs.«400708_j58239756534442_3_alg».proof.Proof.Gen.Pre_finite_inputs
import proofs.«400708_j58239756534442_3_alg».proof.Proof.KernelRun
import proofs.«400708_j58239756534442_3_alg».proof.Proof.KernelValue
import proofs.«400708_j58239756534442_3_alg».proof.Proof.ReferenceRun
import proofs.«400708_j58239756534442_3_alg».proof.Proof.ReferenceRead
import proofs.«400708_j58239756534442_3_alg».proof.Proof.RefValue
import proofs.«400708_j58239756534442_3_alg».proof.Proof.PreFacts
import proofs.«400708_j58239756534442_3_alg».proof.Proof.Spec
import Idealize.ShloMosaic.Adequacy
import Idealize.ShloMosaic.Init

noncomputable section

namespace Cert.Proof

open Idealize.ShloMosaic Idealize.ShloMosaic.ValueIdx Idealize.SL.Sem

/-- Under the precondition the two result terms are one function of arguments that agree: entry by entry, the
    reference's `messageForm` is the kernel's `weightedForm`. -/
theorem terms_agree (x : FVec Ideal Cert.KernelIdeal.S100000x128 .f32) (W : FVec Ideal Cert.KernelIdeal.S128x128 .f32)
    (b : FVec Ideal Cert.KernelIdeal.S128 .f32) (ei : IVec Cert.KernelIdeal.S2x1600000 32)
    (hpre : Cert.Pre_finite_inputs.fn (F := Ideal) x W b ei = fun _ => 1#1) :
    Cert.ReferenceIdeal.Read.val_main_v50 (F := Ideal) x W b ei = Cert.KernelIdeal.Term.kernelTerm x W b ei := by
  obtain ⟨hx, hw, hb, hr⟩ := GcnSum.Pre.facts_of_pre x W b ei hpre
  choose xr hxr using hx
  choose wr hwr using hw
  choose br hbr using hb
  -- every edge end is a node
  have hnode : ∀ (a : Fin 2) (e : Fin 1600000), ∃ u : Fin 100000, (ei (ix2 a e)).toInt = ((u.val : ℕ) : ℤ) := fun a e => by
    obtain ⟨h0, h1⟩ := hr (ix2 a e)
    exact ⟨⟨(ei (ix2 a e)).toInt.toNat, by omega⟩, by simp only; omega⟩
  choose nd hnd using hnode
  funext i
  obtain ⟨a, f, rfl⟩ : ∃ (a : Fin 1) (f : Fin 128), i = ix2 a f := ⟨i 0, i 1, eq_ix2 i⟩
  obtain rfl : a = 0 := Subsingleton.elim _ _
  rw [Cert.ReferenceIdeal.RValue.ref_apply x W b ei (fun u k => xr (ix2 u k)) (fun g k => wr (ix2 g k)) (fun g => br (ix1 g))
      (nd 0) (nd 1) (fun u k => hxr _) (fun g k => hwr _) (fun g => hbr _) (hnd 0) (hnd 1) f,
    Cert.KernelIdeal.KValue.kernelTerm_apply x W b ei (fun u k => xr (ix2 u k)) (fun g k => wr (ix2 g k)) (fun g => br (ix1 g))
      (nd 0) (nd 1) (fun u k => hxr _) (fun g k => hwr _) (fun g => hbr _) (hnd 0) (hnd 1) f,
    GcnSum.messageForm_eq_weightedForm]

theorem frame_k : Cert.frame_Kernel := fun m ρ _ => Cert.Kernel.Gen.frame m ρ

theorem frame_ki : Cert.frame_KernelIdeal := fun m ρ _ => Cert.KernelIdeal.Gen.frame m ρ

/-- The reference has no launch: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealizing pass rewrote nothing. -/
theorem preserves : Cert.preserves_Kernel_KernelIdeal := trivial

/-- Both runs end, the kernel's result at `kernelTerm` of its arguments and the reference's at its composed term of
    arguments that agree: one function (`terms_agree`). -/
theorem algebraic : Cert.algebraic_KernelIdeal_ReferenceIdeal := by
  intro m ρ m' ρ' hpre hagree
  refine ⟨fun c => Cert.KernelIdeal.Term.kernelTerm (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v50_eq, (hagree c).1, (hagree c).2.1, (hagree c).2.2.1, (hagree c).2.2.2]
  exact terms_agree _ _ _ _ (hpre c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
